-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x128 : Shape := ⟨3, ![8, 4096, 128]⟩
abbrev S8x4096x4096 : Shape := ⟨3, ![8, 4096, 4096]⟩
abbrev S128x128 : Shape := ⟨2, ![128, 128]⟩
abbrev S128 : Shape := ⟨1, ![128]⟩
abbrev S_ : Shape := ⟨0, ![]⟩

class Facts : Prop where
  bcast_S_S8x4096x128 : S_.BroadcastsInDim S8x4096x128 (![] : Fin 0 → Fin S8x4096x128.rank)
  reducesTo_S8x4096x128_S_d0_1_2 : S8x4096x128.ReducesTo [0, 1, 2] S_
  h_S_ : 0 < S_.numel
  bcast_S_S8x4096x4096 : S_.BroadcastsInDim S8x4096x4096 (![] : Fin 0 → Fin S8x4096x4096.rank)
  reducesTo_S8x4096x4096_S_d0_1_2 : S8x4096x4096.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S8x4096x128 .f32) (main_arg1 : FVec F S8x4096x4096 .f32) (main_arg2 : FVec F S128x128 .f32) (main_arg3 : FVec F S128 .f32) : IVec S_ 1 :=
  let main_v0 : FVec F S8x4096x128 .f32 := Host.absf main_arg0
  let main_cst : FVec F S_ .f32 := constant S_ .f32 0x7F800000#32
  let main_v1 : FVec F S8x4096x128 .f32 := broadcastInDim S8x4096x128 ![] bcast_S_S8x4096x128 main_cst
  let main_v2 : IVec S8x4096x128 1 := cmpf .olt main_v0 main_v1
  let main_c : IVec S_ 1 := constantI S_ 1 1#1
  let main_v3 : IVec S_ 1 := (fun x v => Host.reduce IntOp.andi x v reducesTo_S8x4096x128_S_d0_1_2 h_S_) main_v2 main_c
  let main_v4 : FVec F S8x4096x4096 .f32 := Host.absf main_arg1
  let main_cst_0 : FVec F S_ .f32 := constant S_ .f32 0x7F800000#32
  let main_v5 : FVec F S8x4096x4096 .f32 := broadcastInDim S8x4096x4096 ![] bcast_S_S8x4096x4096 main_cst_0
  let main_v6 : IVec S8x4096x4096 1 := cmpf .olt main_v4 main_v5
  let main_c_1 : IVec S_ 1 := constantI S_ 1 1#1
  let main_v7 : IVec S_ 1 := (fun x v => Host.reduce IntOp.andi x v reducesTo_S8x4096x4096_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S8x4096x128 : Shape := ⟨3, ![8, 4096, 128]⟩
abbrev S8x4096x4096 : Shape := ⟨3, ![8, 4096, 4096]⟩
abbrev S128x128 : Shape := ⟨2, ![128, 128]⟩
abbrev S128 : Shape := ⟨1, ![128]⟩
abbrev S8x4096 : Shape := ⟨2, ![8, 4096]⟩
abbrev S8x128x1024 : Shape := ⟨3, ![8, 128, 1024]⟩
abbrev S8x128 : Shape := ⟨2, ![8, 128]⟩
abbrev S8x1024x128 : Shape := ⟨3, ![8, 1024, 128]⟩
abbrev S8192x128 : Shape := ⟨2, ![8192, 128]⟩
abbrev S1x128 : Shape := ⟨2, ![1, 128]⟩
abbrev S8x256x1024 : Shape := ⟨3, ![8, 256, 1024]⟩
abbrev S8x256 : Shape := ⟨2, ![8, 256]⟩
abbrev S8x1024 : Shape := ⟨2, ![8, 1024]⟩
abbrev S8x256x128 : Shape := ⟨3, ![8, 256, 128]⟩
abbrev S8x256x1 : Shape := ⟨3, ![8, 256, 1]⟩
abbrev S8x1x1024 : Shape := ⟨3, ![8, 1, 1024]⟩

abbrev nBuf : Space → Nat
  | .hbm => 7
  | .vmem => 22
  | .smem => 0
  | _ => 0

abbrev bufTy : (tb : Table) → Fin (tcTables nBuf tb) → BufTy
  | .hbm, ⟨0, _⟩ => ⟨S8x4096x128, .f32⟩
  | .hbm, ⟨1, _⟩ => ⟨S8x4096x4096, .f32⟩
  | .hbm, ⟨2, _⟩ => ⟨S128x128, .f32⟩
  | .hbm, ⟨3, _⟩ => ⟨S128, .f32⟩
  | .hbm, ⟨4, _⟩ => ⟨S8x4096, .f32⟩
  | .hbm, ⟨5, _⟩ => ⟨S8x4096x128, .bf16⟩
  | .hbm, ⟨6, _⟩ => ⟨S8x4096x128, .f32⟩
  | .local _ .vmem, ⟨0, _⟩ => ⟨S8x128x1024, .f32⟩
  | .local _ .vmem, ⟨1, _⟩ => ⟨S8x128x1024, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x1024x128, .f32⟩
  | .local _ .vmem, ⟨6, _⟩ => ⟨S8x1024x128, .f32⟩
  | .local _ .vmem, ⟨7, _⟩ => ⟨S128x128, .f32⟩
  | .local _ .vmem, ⟨8, _⟩ => ⟨S128, .f32⟩
  | .local _ .vmem, ⟨9, _⟩ => ⟨S8x1024x128, .bf16⟩
  | .local _ .vmem, ⟨10, _⟩ => ⟨S8x1024x128, .bf16⟩
  | .local _ .vmem, ⟨11, _⟩ => ⟨S8x256x1024, .f32⟩
  | .local _ .vmem, ⟨12, _⟩ => ⟨S8x256x1024, .f32⟩
  | .local _ .vmem, ⟨13, _⟩ => ⟨S8x256, .f32⟩
  | .local _ .vmem, ⟨14, _⟩ => ⟨S8x256, .f32⟩
  | .local _ .vmem, ⟨15, _⟩ => ⟨S8x1024, .f32⟩
  | .local _ .vmem, ⟨16, _⟩ => ⟨S8x1024, .f32⟩
  | .local _ .vmem, ⟨17, _⟩ => ⟨S8x1024x128, .bf16⟩
  | .local _ .vmem, ⟨18, _⟩ => ⟨S8x1024x128, .bf16⟩
  | .local _ .vmem, ⟨19, _⟩ => ⟨S8x256x128, .f32⟩
  | .local _ .vmem, ⟨20, _⟩ => ⟨S8x256x128, .f32⟩
  | .local _ .vmem, ⟨21, _⟩ => ⟨S8x256x128, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc2_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8x1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![16, 4], ![false, false]⟩

def k2_cond2 (i : grid2.Coords) : BitVec 1 :=
  let arg1 : BitVec 32 := BitVec.ofNat 32 (i 1).val
  let c3_i32 : BitVec 32 := 3#32
  let v25 : BitVec 1 := Scalar.cmpi .eq arg1 c3_i32
  let v26 : BitVec 32 := Scalar.extui v25
  let c0_i32_16 : BitVec 32 := 0#32
  let v27 : BitVec 1 := Scalar.cmpi .ne v26 c0_i32_16
  v27

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S8x256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S8x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S8x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S8x1024x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S8x256x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x128x1024_S8x128x1024_0_0_0 : ∀ a, (![0, 0, 0] : Fin 3 → Nat) a + S8x128x1024.size a ≤ S8x128x1024.size a
  h_S8x128x1024 : 0 < S8x128x1024.numel
  reduces_S8x128x1024_S8x128 : S8x128x1024.Reduces [2] S8x128
  inb_S8x1024x128_S8x1024x128_0_0_0 : ∀ a, (![0, 0, 0] : Fin 3 → Nat) a + S8x1024x128.size a ≤ S8x1024x128.size a
  h_S8x1024x128 : 0 < S8x1024x128.numel
  bitsLt_bf16_f32 : FTy.bits .bf16 < FTy.bits .f32
  shapeCasts_S8x1024x128_S8192x128 : S8x1024x128.ShapeCasts S8192x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  shapeCasts_S8192x128_S8x1024x128 : S8192x128.ShapeCasts S8x1024x128
  packedbf16_S8x1024x128_S8x1024x128_0_0_0 : (Rect.unit (s := S8x1024x128) ![0, 0, 0] S8x1024x128.size inb_S8x1024x128_S8x1024x128_0_0_0).PackedRows (EltTy.packing .bf16)
  inb_S8x256x128_S8x256x128_0_0_0 : ∀ a, (![0, 0, 0] : Fin 3 → Nat) a + S8x256x128.size a ≤ S8x256x128.size a
  h_S8x256x128 : 0 < S8x256x128.numel
  shapeCasts_S8x256x128_S8x256x128 : S8x256x128.ShapeCasts S8x256x128
  inb_S8x256x1024_S8x256x1024_0_0_0 : ∀ a, (![0, 0, 0] : Fin 3 → Nat) a + S8x256x1024.size a ≤ S8x256x1024.size a
  h_S8x256x1024 : 0 < S8x256x1024.numel
  inb_S8x256_S8x256_0_0 : ∀ a, (![0, 0] : Fin 2 → Nat) a + S8x256.size a ≤ S8x256.size a
  h_S8x256 : 0 < S8x256.numel
  shapeCasts_S8x256_S8x256 : S8x256.ShapeCasts S8x256
  shapeCasts_S8x256_S8x256x1 : S8x256.ShapeCasts S8x256x1
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  shapeCasts_S8x1024_S8x1x1024 : S8x1024.ShapeCasts S8x1x1024
  broadcasts_S8x256x1_S8x256x1024 : S8x256x1.Broadcasts S8x256x1024
  broadcasts_S8x1x1024_S8x256x1024 : S8x1x1024.Broadcasts S8x256x1024
  shapeCasts_S8x1024x128_S8x1024x128 : S8x1024x128.ShapeCasts S8x1024x128
  reduces_S8x256x128_S8x256 : S8x256x128.Reduces [2] S8x256
  broadcasts_S8x256x1_S8x256x128 : S8x256x1.Broadcasts S8x256x128
  dot_S8192x128_S128x128_S8192x128_1_1_0_0_n_n_wf : DotDims.WF S8192x128 S128x128 S8192x128 [1] [1] [0] [0] [] []
  dot_S8x256x1024_S8x1024x128_S8x256x128_2_1_1_2_0_0_wf : DotDims.WF S8x256x1024 S8x1024x128 S8x256x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1024.size a ≤ S8x4096x4096.size a
  hwx0_0 : ∀ i : grid0.Coords, EltTy.bits .f32 = 32 ∨ (Rect.block (s := S8x4096x4096) S8x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x4096.size a
  hwx0_1 : ∀ i : grid0.Coords, EltTy.bits .f32 = 32 ∨ (Rect.block (s := S8x4096) S8x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x1024x128.size a ≤ S8x4096x128.size a
  hwx1_0 : ∀ i : grid1.Coords, EltTy.bits .f32 = 32 ∨ (Rect.block (s := S8x4096x128) S8x1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x1024x128.size a ≤ S8x4096x128.size a
  hwx1_3 : ∀ i : grid1.Coords, EltTy.bits .bf16 = 32 ∨ (Rect.block (s := S8x4096x128) S8x1024x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x256x1024.size a ≤ S8x4096x4096.size a
  hwx2_0 : ∀ i : grid2.Coords, EltTy.bits .f32 = 32 ∨ (Rect.block (s := S8x4096x4096) S8x256x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x256.size a ≤ S8x4096.size a
  hwx2_1 : ∀ i : grid2.Coords, EltTy.bits .f32 = 32 ∨ (Rect.block (s := S8x4096) S8x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x1024.size a ≤ S8x4096.size a
  hwx2_2 : ∀ i : grid2.Coords, EltTy.bits .f32 = 32 ∨ (Rect.block (s := S8x4096) S8x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8x1024x128.size a ≤ S8x4096x128.size a
  hwx2_3 : ∀ i : grid2.Coords, EltTy.bits .bf16 = 32 ∨ (Rect.block (s := S8x4096x128) S8x1024x128.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8x256x128.size a ≤ S8x4096x128.size a
  hwx2_4 : ∀ i : grid2.Coords, EltTy.bits .f32 = 32 ∨ (Rect.block (s := S8x4096x128) S8x256x128.size (cc2_transform_4 i) (hinb2_4 i)).WholeWords (EltTy.packing .f32)

variable [Facts₀]

def dot_S8192x128_S128x128_S8192x128_1_1_0_0_n_n : DotDims S8192x128 S128x128 S8192x128 where
  lhsContracting := [1]
  rhsContracting := [1]
  lhsNonContracting := [0]
  rhsNonContracting := [0]
  lhsBatch := []
  rhsBatch := []
  wf := dot_S8192x128_S128x128_S8192x128_1_1_0_0_n_n_wf
def dot_S8x256x1024_S8x1024x128_S8x256x128_2_1_1_2_0_0 : DotDims S8x256x1024 S8x1024x128 S8x256x128 where
  lhsContracting := [2]
  rhsContracting := [1]
  lhsNonContracting := [1]
  rhsNonContracting := [2]
  lhsBatch := [0]
  rhsBatch := [0]
  wf := dot_S8x256x1024_S8x1024x128_S8x256x128_2_1_1_2_0_0_wf

abbrev win0_0 : Pipeline.Window sig grid0 :=
  Pipeline.Window.ofSpec (Memref.whole main_arg1) S8x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S8x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S8x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S8x256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S8x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0) S8x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v1) S8x1024x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2) S8x256x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S8x4096x128 : Shape := ⟨3, ![8, 4096, 128]⟩
abbrev S8x4096x4096 : Shape := ⟨3, ![8, 4096, 4096]⟩
abbrev S128x128 : Shape := ⟨2, ![128, 128]⟩
abbrev S128 : Shape := ⟨1, ![128]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S1x1x128 : Shape := ⟨3, ![1, 1, 128]⟩

abbrev nBuf : Space → Nat
  | .hbm => 55
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S8x4096x4096, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S8x4096, .f32⟩
  | .hbm, ⟨6, _⟩ => ⟨S_, .f32⟩
  | .hbm, ⟨7, _⟩ => ⟨S8x4096, .f32⟩
  | .hbm, ⟨8, _⟩ => ⟨S8x4096, .i1⟩
  | .hbm, ⟨9, _⟩ => ⟨S8x4096, .f32⟩
  | .hbm, ⟨10, _⟩ => ⟨S_, .f32⟩
  | .hbm, ⟨11, _⟩ => ⟨S_, .f32⟩
  | .hbm, ⟨12, _⟩ => ⟨S8x4096, .f32⟩
  | .hbm, ⟨13, _⟩ => ⟨S8x4096, .f32⟩
  | .hbm, ⟨14, _⟩ => ⟨S8x4096x1, .f32⟩
  | .hbm, ⟨15, _⟩ => ⟨S8x4096x4096, .f32⟩
  | .hbm, ⟨16, _⟩ => ⟨S8x4096x4096, .f32⟩
  | .hbm, ⟨17, _⟩ => ⟨S8x1x4096, .f32⟩
  | .hbm, ⟨18, _⟩ => ⟨S8x4096x4096, .f32⟩
  | .hbm, ⟨19, _⟩ => ⟨S8x4096x4096, .f32⟩
  | .hbm, ⟨20, _⟩ => ⟨S8x4096x128, .f32⟩
  | .hbm, ⟨21, _⟩ => ⟨S1x1x128, .f32⟩
  | .hbm, ⟨22, _⟩ => ⟨S8x4096x128, .f32⟩
  | .hbm, ⟨23, _⟩ => ⟨S8x4096x128, .f32⟩
  | .hbm, ⟨24, _⟩ => ⟨S_, .f32⟩
  | .hbm, ⟨25, _⟩ => ⟨S8x4096x128, .f32⟩
  | .hbm, ⟨26, _⟩ => ⟨S8x4096x128, .i1⟩
  | .hbm, ⟨27, _⟩ => ⟨S_, .f32⟩
  | .hbm, ⟨28, _⟩ => ⟨S8x4096x128, .f32⟩
  | .hbm, ⟨29, _⟩ => ⟨S8x4096x128, .f32⟩
  | .hbm, ⟨30, _⟩ => ⟨S8x4096x128, .f32⟩
  | .hbm, ⟨31, _⟩ => ⟨S8x4096x128, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S_, .f32⟩
  | .hbm, ⟨36, _⟩ => ⟨S8x4096x1, .f32⟩
  | .hbm, ⟨37, _⟩ => ⟨S8x4096x1, .f32⟩
  | .hbm, ⟨38, _⟩ => ⟨S8x4096x128, .f32⟩
  | .hbm, ⟨39, _⟩ => ⟨S8x4096x128, .f32⟩
  | .hbm, ⟨40, _⟩ => ⟨S8x4096x128, .f32⟩
  | .hbm, ⟨41, _⟩ => ⟨S_, .f32⟩
  | .hbm, ⟨42, _⟩ => ⟨S8x4096, .f32⟩
  | .hbm, ⟨43, _⟩ => ⟨S8x4096x1, .f32⟩
  | .hbm, ⟨44, _⟩ => ⟨S_, .f32⟩
  | .hbm, ⟨45, _⟩ => ⟨S8x4096x1, .f32⟩
  | .hbm, ⟨46, _⟩ => ⟨S8x4096x1, .f32⟩
  | .hbm, ⟨47, _⟩ => ⟨S8x4096x128, .f32⟩
  | .hbm, ⟨48, _⟩ => ⟨S8x4096x128, .f32⟩
  | .hbm, ⟨49, _⟩ => ⟨S_, .f32⟩
  | .hbm, ⟨50, _⟩ => ⟨S8x4096x1, .f32⟩
  | .hbm, ⟨51, _⟩ => ⟨S8x4096x1, .f32⟩
  | .hbm, ⟨52, _⟩ => ⟨S8x4096x1, .f32⟩
  | .hbm, ⟨53, _⟩ => ⟨S8x4096x128, .f32⟩
  | .hbm, ⟨54, _⟩ => ⟨S8x4096x128, .f32⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]

class Facts₀ : Prop where
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  bcast_S8x4096_S8x1x4096_0_2 : S8x4096.BroadcastsInDim S8x1x4096 (![0, 2] : Fin 2 → Fin S8x1x4096.rank)
  bcast_S8x1x4096_S8x4096x4096_0_1_2 : S8x1x4096.BroadcastsInDim S8x4096x4096 (![0, 1, 2] : Fin 3 → Fin S8x4096x4096.rank)
  bcast_S128_S1x1x128_2 : S128.BroadcastsInDim S1x1x128 (![2] : Fin 1 → Fin S1x1x128.rank)
  bcast_S1x1x128_S8x4096x128_0_1_2 : S1x1x128.BroadcastsInDim S8x4096x128 (![0, 1, 2] : Fin 3 → Fin S8x4096x128.rank)
  bcast_S_S8x4096x128 : S_.BroadcastsInDim S8x4096x128 (![] : Fin 0 → Fin S8x4096x128.rank)
  reducesTo_S8x4096x128_S8x4096_d2 : S8x4096x128.ReducesTo [2] S8x4096
  bcast_S_S8x4096x1 : S_.BroadcastsInDim S8x4096x1 (![] : Fin 0 → Fin S8x4096x1.rank)
  bcast_S8x4096x1_S8x4096x128_0_1_2 : S8x4096x1.BroadcastsInDim S8x4096x128 (![0, 1, 2] : Fin 3 → Fin S8x4096x128.rank)
  dot_S8x4096x128_S128x128_S8x4096x128_2_1_01_0_n_n_wf : DotDims.WF S8x4096x128 S128x128 S8x4096x128 [2] [1] [0, 1] [0] [] []
  dot_S8x4096x4096_S8x4096x128_S8x4096x128_2_1_1_2_0_0_wf : DotDims.WF S8x4096x4096 S8x4096x128 S8x4096x128 [2] [1] [1] [2] [0] [0]

variable [Facts₀]

def dot_S8x4096x128_S128x128_S8x4096x128_2_1_01_0_n_n : DotDims S8x4096x128 S128x128 S8x4096x128 where
  lhsContracting := [2]
  rhsContracting := [1]
  lhsNonContracting := [0, 1]
  rhsNonContracting := [0]
  lhsBatch := []
  rhsBatch := []
  wf := dot_S8x4096x128_S128x128_S8x4096x128_2_1_01_0_n_n_wf
def dot_S8x4096x4096_S8x4096x128_S8x4096x128_2_1_1_2_0_0 : DotDims S8x4096x4096 S8x4096x128 S8x4096x128 where
  lhsContracting := [2]
  rhsContracting := [1]
  lhsNonContracting := [1]
  rhsNonContracting := [2]
  lhsBatch := [0]
  rhsBatch := [0]
  wf := dot_S8x4096x4096_S8x4096x128_S8x4096x128_2_1_1_2_0_0_wf

class Facts : Prop extends Facts₀ where

variable [Facts]
-- ==== Proof.KI.Data.lean ====
import proofs.«143304_j89043261980850_1_alg».proof.Proof.Gen.KernelIdeal.Launch
import proofs.«143304_j89043261980850_1_alg».proof.Proof.Gen.KernelIdeal.Skeleton
import proofs.«143304_j89043261980850_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The three pipelined regions: what each one's windows read, what its body leaves, its invariant

Every definition is stated at a parameter `V`, the contents of core `c`'s buffers when the region is entered. -/

/-! ## Region 0: row sums of the adjacency block accumulated over the four column tiles, then the guarded inverse root -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator scratch, whole. -/
abbrev scM0 : Memref sig .tc .vmem S8x128 .f32 := Memref.whole cc0_scratch0

/-- "The column-tile coordinate is 0": the reset branch. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- "The column-tile coordinate is 3": the finishing branch. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel

/-- What the accumulator holds after point `n`: the block's row sums added to zero at the first column tile, to what the
    point before left at the others. -/
def acc0 (c : Dev nD) : (n : ℕ) → n < cfg0.N → Vec F S8x128 .f32
  | 0, hn => k0_pay2 (k0_pay1 (F := F)) (iblk0 V c 0 ⟨0, hn⟩)
  | n + 1, hn => k0_pay2 (if (n + 1) % 4 = 0 then k0_pay1 (F := F) else acc0 c n (Nat.lt_of_succ_lt hn)) (iblk0 V c 0 ⟨n + 1, hn⟩)

theorem acc0_reset (c : Dev nD) (t : Fin cfg0.N) (h : t.val % 4 = 0) :
    acc0 V c t.val t.isLt = k0_pay2 (k0_pay1 (F := F)) (iblk0 V c 0 t) := by
  obtain ⟨n, hn⟩ := t
  cases n with
  | zero => rfl
  | succ n => exact congrArg (fun a => k0_pay2 a (iblk0 V c 0 ⟨n + 1, hn⟩)) (if_pos h)

theorem acc0_step (c : Dev nD) (t : Fin cfg0.N) (h : ¬t.val % 4 = 0) :
    acc0 V c t.val t.isLt = k0_pay2 (acc0 V c (t.val - 1) (Nat.lt_of_le_of_lt (Nat.sub_le _ _) t.isLt)) (iblk0 V c 0 t) := by
  obtain ⟨n, hn⟩ := t
  cases n with
  | zero => exact absurd (Nat.zero_mod _) h
  | succ n => exact congrArg (fun a => k0_pay2 a (iblk0 V c 0 ⟨n + 1, hn⟩)) (if_neg h)

/-- The core's scoped buffers that region 0 neither stages nor uses, each at some contents. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_scratch0), ((c : Thread nD τ).loc cc2_scratch0) ↦{fullShare} f))

/-- Region 0's invariant before position `n`: every scoped buffer it does not stage at some contents and the generator
    register at some state; after the first point the accumulator at what the point before left. -/
def Phi0 (c : Dev nD) : (n : ℕ) → n ≤ cfg0.N → sProp 𝕄
  | 0, _ => Pipeline.ΦA spec0 c
  | n + 1, hn => iprop(owns (c : Thread nD τ) scM0 fullShare (acc0 V c n hn) ∗ restS0 (F := F) c ∗ (∃ r, prngReg c r))

theorem PhiA0_eq (c : Dev nD) :
    (Pipeline.ΦA spec0 c : sProp 𝕄) = iprop(((∃ d, owns (c : Thread nD τ) scM0 fullShare d) ∗ restS0 (F := F) c) ∗ (∃ r, prngReg c r)) := by
  unfold Pipeline.ΦA restS0; rw [scopedRest0_eq]; simp only [scM0, owns_whole]; try rfl

theorem PhiA0_in (c : Dev nD) :
    (Pipeline.ΦA spec0 c : sProp 𝕄) ⊢ iprop((∃ d, owns (c : Thread nD τ) scM0 fullShare d) ∗ restS0 (F := F) c ∗ (∃ r, prngReg c r)) := by
  rw [PhiA0_eq]; iintro ⟨⟨HS, HR⟩, Hg⟩
  isplitl [HS]; · iexact HS
  isplitl [HR]; · iexact HR
  iexact Hg

theorem PhiA0_out (c : Dev nD) :
    iprop((∃ d, owns (c : Thread nD τ) scM0 fullShare d) ∗ restS0 (F := F) c ∗ (∃ r, prngReg c r)) ⊢ (Pipeline.ΦA spec0 c : sProp 𝕄) := by
  rw [PhiA0_eq]; iintro ⟨HS, HR, Hg⟩
  isplitr [Hg]
  swap; · iexact Hg
  isplitl [HS]; · iexact HS
  iexact HR

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(owns (c : Thread nD τ) scM0 fullShare (acc0 V c n hn) ∗ restS0 (F := F) c ∗ (∃ r, prngReg c r)) := rfl
theorem Phi0_pos (c : Dev nD) (n : ℕ) (h : n ≤ cfg0.N) (hz : n ≠ 0) :
    Phi0 V c n h = iprop(owns (c : Thread nD τ) scM0 fullShare (acc0 V c (n - 1) (by omega)) ∗ restS0 (F := F) c ∗ (∃ r, prngReg c r)) := by
  cases n with
  | zero => exact absurd rfl hz
  | succ n => rfl

/-- Region 0's proof data: the input window keeps its block; the output window's buffer, where the body stores it (the last
    column tile), holds the guarded inverse root of the accumulator. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay3 (acc0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = k0_pay3 (acc0 V c t.val t.isLt) := by dsimp only [dat0]
theorem Phi0_castSucc (c : Dev nD) (t : Fin cfg0.N) : (dat0 V c).Φ t.castSucc = Phi0 V c t.val (Nat.le_of_lt t.isLt) := by
  dsimp only [dat0]; simp only [Fin.coe_castSucc]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

end Region0

/-! ## Region 1: the linear layer and its leaky rectifier, one row tile per point (nothing carried between points) -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Region 1's proof data: each input window keeps its block; the output window's buffer holds the body's one payload of
    the three input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay1 (iblk1 V c 0 t) (iblk1 V c 1 t) (iblk1 V c 2 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

end Region1

/-! ## Region 2: the normalised adjacency block times the feature tile, accumulated over the four column tiles, then the
    row-wise normalisation of the accumulated tile -/

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator scratch, whole. -/
abbrev scM2 : Memref sig .tc .vmem S8x256x128 .f32 := Memref.whole cc2_scratch0

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

/-- What the accumulator holds after point `n`: the tile product added to zero at the first column tile, to what the point
    before left at the others. -/
def acc2 (c : Dev nD) : (n : ℕ) → n < cfg2.N → Vec F S8x256x128 .f32
  | 0, hn => k2_pay2 (iblk2 V c 0 ⟨0, hn⟩) (iblk2 V c 1 ⟨0, hn⟩) (iblk2 V c 2 ⟨0, hn⟩) (iblk2 V c 3 ⟨0, hn⟩) (k2_pay1 (F := F))
  | n + 1, hn => k2_pay2 (iblk2 V c 0 ⟨n + 1, hn⟩) (iblk2 V c 1 ⟨n + 1, hn⟩) (iblk2 V c 2 ⟨n + 1, hn⟩) (iblk2 V c 3 ⟨n + 1, hn⟩)
      (if (n + 1) % 4 = 0 then k2_pay1 (F := F) else acc2 c n (Nat.lt_of_succ_lt hn))

theorem acc2_reset (c : Dev nD) (t : Fin cfg2.N) (h : t.val % 4 = 0) :
    acc2 V c t.val t.isLt = k2_pay2 (iblk2 V c 0 t) (iblk2 V c 1 t) (iblk2 V c 2 t) (iblk2 V c 3 t) (k2_pay1 (F := F)) := by
  obtain ⟨n, hn⟩ := t
  cases n with
  | zero => rfl
  | succ n => exact congrArg (k2_pay2 (iblk2 V c 0 ⟨n + 1, hn⟩) (iblk2 V c 1 ⟨n + 1, hn⟩) (iblk2 V c 2 ⟨n + 1, hn⟩) (iblk2 V c 3 ⟨n + 1, hn⟩)) (if_pos h)

theorem acc2_step (c : Dev nD) (t : Fin cfg2.N) (h : ¬t.val % 4 = 0) :
    acc2 V c t.val t.isLt = k2_pay2 (iblk2 V c 0 t) (iblk2 V c 1 t) (iblk2 V c 2 t) (iblk2 V c 3 t)
      (acc2 V c (t.val - 1) (Nat.lt_of_le_of_lt (Nat.sub_le _ _) t.isLt)) := by
  obtain ⟨n, hn⟩ := t
  cases n with
  | zero => exact absurd (Nat.zero_mod _) h
  | succ n => exact congrArg (k2_pay2 (iblk2 V c 0 ⟨n + 1, hn⟩) (iblk2 V c 1 ⟨n + 1, hn⟩) (iblk2 V c 2 ⟨n + 1, hn⟩) (iblk2 V c 3 ⟨n + 1, hn⟩)) (if_neg h)

/-- The core's scoped buffers that region 2 neither stages nor uses, each at some contents. -/
def restS2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- Region 2's invariant before position `n`, as region 0's. -/
def Phi2 (c : Dev nD) : (n : ℕ) → n ≤ cfg2.N → sProp 𝕄
  | 0, _ => Pipeline.ΦA spec2 c
  | n + 1, hn => iprop(owns (c : Thread nD τ) scM2 fullShare (acc2 V c n hn) ∗ restS2 (F := F) c ∗ (∃ r, prngReg c r))

theorem PhiA2_in (c : Dev nD) :
    (Pipeline.ΦA spec2 c : sProp 𝕄) ⊢ iprop((∃ d, owns (c : Thread nD τ) scM2 fullShare d) ∗ restS2 (F := F) c ∗ (∃ r, prngReg c r)) := by
  unfold Pipeline.ΦA restS2; rw [scopedRest2_eq]; simp only [scM2, owns_whole]
  iintro ⟨⟨H1, H2, H3, H4, H5, H6, H7, H8, H9, H10, H11, HS⟩, Hg⟩
  isplitl [HS]; · iexact HS
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem PhiA2_out (c : Dev nD) :
    iprop((∃ d, owns (c : Thread nD τ) scM2 fullShare d) ∗ restS2 (F := F) c ∗ (∃ r, prngReg c r)) ⊢ (Pipeline.ΦA spec2 c : sProp 𝕄) := by
  unfold Pipeline.ΦA restS2; rw [scopedRest2_eq]; simp only [scM2, owns_whole]
  iintro ⟨HS, ⟨H1, H2, H3, H4, H5, H6, H7, H8, H9, H10, H11⟩, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HS

theorem Phi2_zero (c : Dev nD) (n : ℕ) (h : n ≤ cfg2.N) (hz : n = 0) : Phi2 V c n h = Pipeline.ΦA spec2 c := by
  subst hz; rfl
theorem Phi2_succ (c : Dev nD) (n : ℕ) (hn : n < cfg2.N) :
    Phi2 V c (n + 1) hn = iprop(owns (c : Thread nD τ) scM2 fullShare (acc2 V c n hn) ∗ restS2 (F := F) c ∗ (∃ r, prngReg c r)) := rfl
theorem Phi2_pos (c : Dev nD) (n : ℕ) (h : n ≤ cfg2.N) (hz : n ≠ 0) :
    Phi2 V c n h = iprop(owns (c : Thread nD τ) scM2 fullShare (acc2 V c (n - 1) (by omega)) ∗ restS2 (F := F) c ∗ (∃ r, prngReg c r)) := by
  cases n with
  | zero => exact absurd rfl hz
  | succ n => rfl

/-- Region 2's proof data. Windows 1 and 2 read ONE array (the inverse roots, by rows and by columns): each holds half of it. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay3 (acc2 V c t.val t.isLt)
  Φ t := Phi2 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = k2_pay3 (acc2 V c t.val t.isLt) := by dsimp only [dat2]
theorem Phi2_castSucc (c : Dev nD) (t : Fin cfg2.N) : (dat2 V c).Φ t.castSucc = Phi2 V c t.val (Nat.le_of_lt t.isLt) := by
  dsimp only [dat2]; simp only [Fin.coe_castSucc]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)

end Region2

end Cert.KernelIdeal.Hand
end
-- ==== Proof.KI.Fold.lean ====
import proofs.«143304_j89043261980850_1_alg».proof.Proof.KI.Data
import proofs.«143304_j89043261980850_1_alg».proof.Proof.Gen.KernelIdeal.Launch
import proofs.«143304_j89043261980850_1_alg».proof.Proof.Gen.KernelIdeal.Regions
import proofs.«143304_j89043261980850_1_alg».proof.Proof.Gen.KernelIdeal.Skeleton
import proofs.«143304_j89043261980850_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffers' contents from the launch to the return, and every region's proof data at its entry contents

The program is three regions and no host operation: region 0 writes the inverse roots, region 1 the rectified
features, region 2 the result; every other buffer keeps what it held. -/

variable (m : (ℓ : Loc nD τ sig) → Buf (Elt F) ℓ)

/-- Core `c`'s buffers at launch: what region 0 is entered at. -/
abbrev Ve0 (c : Dev nD) (b : Ref sig .tc) : Buf (Elt F) ((c : Thread nD τ).loc b) := m ((c : Thread nD τ).loc b)
/-- What region 0 leaves in the inverse-root array. -/
def o0 (c : Dev nD) : Buf (Elt F) ((c : Thread nD τ).loc main_v0) := (dat0 (Ve0 m) c).arrAt 1 cfg0.N
/-- After region 0: what region 1 is entered at. -/
def Ve1 (c : Dev nD) : (b : Ref sig .tc) → Buf (Elt F) ((c : Thread nD τ).loc b) := Function.update (Ve0 m c) main_v0 (o0 m c)
/-- What region 1 leaves in the feature array. -/
def o1 (c : Dev nD) : Buf (Elt F) ((c : Thread nD τ).loc main_v1) := (dat1 (Ve1 m) c).arrAt 3 cfg1.N
/-- After region 1: what region 2 is entered at. -/
def Ve2 (c : Dev nD) : (b : Ref sig .tc) → Buf (Elt F) ((c : Thread nD τ).loc b) := Function.update (Ve1 m c) main_v1 (o1 m c)
/-- What region 2 leaves in the result array. -/
def o2 (c : Dev nD) : Buf (Elt F) ((c : Thread nD τ).loc main_v2) := (dat2 (Ve2 m) c).arrAt 4 cfg2.N
/-- After region 2: what the program returns with. -/
def Ve3 (c : Dev nD) : (b : Ref sig .tc) → Buf (Elt F) ((c : Thread nD τ).loc b) := Function.update (Ve2 m c) main_v2 (o2 m c)

theorem Ve1_v0 (c : Dev nD) : Ve1 m c main_v0 = o0 m c := Function.update_self ..
theorem Ve1_of_ne (c : Dev nD) (b : Ref sig .tc) (h : b ≠ main_v0) : Ve1 m c b = Ve0 m c b := Function.update_of_ne h ..
theorem Ve2_v1 (c : Dev nD) : Ve2 m c main_v1 = o1 m c := Function.update_self ..
theorem Ve2_of_ne (c : Dev nD) (b : Ref sig .tc) (h : b ≠ main_v1) : Ve2 m c b = Ve1 m c b := Function.update_of_ne h ..
theorem Ve3_v2 (c : Dev nD) : Ve3 m c main_v2 = o2 m c := Function.update_self ..
theorem Ve3_of_ne (c : Dev nD) (b : Ref sig .tc) (h : b ≠ main_v2) : Ve3 m c b = Ve2 m c b := Function.update_of_ne h ..

/-- The arguments are never written. -/
theorem Ve3_arg0 (c : Dev nD) : Ve3 m c main_arg0 = m ((c : Thread nD τ).loc main_arg0) :=
  (Ve3_of_ne m c _ (by decide)).trans ((Ve2_of_ne m c _ (by decide)).trans (Ve1_of_ne m c _ (by decide)))
theorem Ve3_arg1 (c : Dev nD) : Ve3 m c main_arg1 = m ((c : Thread nD τ).loc main_arg1) :=
  (Ve3_of_ne m c _ (by decide)).trans ((Ve2_of_ne m c _ (by decide)).trans (Ve1_of_ne m c _ (by decide)))
theorem Ve3_arg2 (c : Dev nD) : Ve3 m c main_arg2 = m ((c : Thread nD τ).loc main_arg2) :=
  (Ve3_of_ne m c _ (by decide)).trans ((Ve2_of_ne m c _ (by decide)).trans (Ve1_of_ne m c _ (by decide)))
theorem Ve3_arg3 (c : Dev nD) : Ve3 m c main_arg3 = m ((c : Thread nD τ).loc main_arg3) :=
  (Ve3_of_ne m c _ (by decide)).trans ((Ve2_of_ne m c _ (by decide)).trans (Ve1_of_ne m c _ (by decide)))

/-- What each region reads of what the regions before it wrote. -/
theorem Ve1_arg0 (c : Dev nD) : Ve1 m c main_arg0 = m ((c : Thread nD τ).loc main_arg0) := Ve1_of_ne m c _ (by decide)
theorem Ve1_arg2 (c : Dev nD) : Ve1 m c main_arg2 = m ((c : Thread nD τ).loc main_arg2) := Ve1_of_ne m c _ (by decide)
theorem Ve1_arg3 (c : Dev nD) : Ve1 m c main_arg3 = m ((c : Thread nD τ).loc main_arg3) := Ve1_of_ne m c _ (by decide)
theorem Ve2_arg1 (c : Dev nD) : Ve2 m c main_arg1 = m ((c : Thread nD τ).loc main_arg1) :=
  (Ve2_of_ne m c _ (by decide)).trans (Ve1_of_ne m c _ (by decide))
theorem Ve2_v0 (c : Dev nD) : Ve2 m c main_v0 = o0 m c := (Ve2_of_ne m c _ (by decide)).trans (Ve1_v0 m c)

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) c
  | ⟨2, _⟩ => fun c => dat2 (Ve2 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers between regions: the generator register at some state and the core owing nothing. -/
abbrev R (c : Dev nD) : sProp 𝕄 := iprop((∃ r, prngReg c r) ∗ ∃ W, owes (c : Thread nD τ) (0 : CellTallies nD τ sig Unit) W)
/-- The thread state between two regions: every unscoped buffer at the given contents, and `R`. -/
abbrev TS (Ve : (c : Dev nD) → (b : Ref sig .tc) → Buf (Elt F) ((c : Thread nD τ).loc b)) (c : Dev nD) : sProp 𝕄 :=
  iprop(unscopedBufs c (Ve c) ∗ R (F := F) c)

end Cert.KernelIdeal.Hand
end
-- ==== Proof.KI.Body0.lean ====
import proofs.«143304_j89043261980850_1_alg».proof.Proof.KI.Data
import proofs.«143304_j89043261980850_1_alg».proof.Proof.Gen.KernelIdeal.Launch
import proofs.«143304_j89043261980850_1_alg».proof.Proof.Gen.KernelIdeal.Skeleton
import proofs.«143304_j89043261980850_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0's body: one run per control case, then the obligation at every point

The body stores whole buffers only, so each run's post names the payloads directly: the accumulator ends at the
block's row sums added to what it held (zero at the first column tile), and at the last column tile the output buffer
at the guarded inverse root of that. -/

private theorem hz2 : (![0, 0] : Fin 2 → Nat) = fun _ => 0 := by funext a; fin_cases a <;> rfl
private theorem hz3 : (![0, 0, 0] : Fin 3 → Nat) = fun _ => 0 := by funext a; fin_cases a <;> rfl

set_option maxHeartbeats 1000000 in
/-- First column tile: the accumulator is zeroed, then the row sums are added; the output buffer is untouched. -/
theorem run0_A (c : Dev nD) (i : grid0.Coords) (arg2 : Memref sig .tc .vmem S8x128x1024 .f32) (harg2 : arg2.IsWhole) (arg3 : Memref sig .tc .vmem S8x128 .f32) (harg3 : arg3.IsWhole) (arg4 : Memref sig .tc .vmem S8x128 .f32) (harg4 : arg4.IsWhole) (hc0 : cond0_0 i) (hc1 : ¬cond0_1 i)
    (x0 : Vec F S8x128x1024 .f32) (xi1 : Vec F S8x128 .f32) (E : Set ℕ) (K : PUnit → sProp 𝕄) :
    iprop(owns (c : Thread nD τ) arg2 fullShare x0 ∗ owns (c : Thread nD τ) arg3 fullShare xi1 ∗ (∃ d, owns (c : Thread nD τ) arg4 fullShare d)
        ∗ (iprop(owns (c : Thread nD τ) arg2 fullShare x0 ∗ owns (c : Thread nD τ) arg3 fullShare xi1 ∗ owns (c : Thread nD τ) arg4 fullShare (k0_pay2 (k0_pay1 (F := F)) x0)) -∗ K ⟨⟩))
      ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_words
  rw [View.read_writes_eq_canon _ _ _ (fun y => ⟨_, List.mem_cons_self .., View.mem_set_unit_zero hz2 inb_S8x128_S8x128_0_0 y⟩)]
  rw [View.canon_cons_unit_zero (S := S8x128) hz2]
  simp only [View.readAt_eq_ld, harg4.read_unread, harg2.read_unread, View.ld_unit_zero (S := S8x128) hz2, View.ld_unit_zero (S := S8x128x1024) hz3, View.readCov_unit_zero (S := S8x128) _ hz2]

set_option maxHeartbeats 1000000 in
/-- A middle column tile: the row sums are added to what the accumulator held; the output buffer is untouched. -/
theorem run0_B (c : Dev nD) (i : grid0.Coords) (arg2 : Memref sig .tc .vmem S8x128x1024 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : ¬cond0_1 i)
    (x0 : Vec F S8x128x1024 .f32) (xi1 : Vec F S8x128 .f32) (a : Vec F S8x128 .f32) (E : Set ℕ) (K : PUnit → sProp 𝕄) :
    iprop(owns (c : Thread nD τ) arg2 fullShare x0 ∗ owns (c : Thread nD τ) arg3 fullShare xi1 ∗ owns (c : Thread nD τ) arg4 fullShare a
        ∗ (iprop(owns (c : Thread nD τ) arg2 fullShare x0 ∗ owns (c : Thread nD τ) arg3 fullShare xi1 ∗ owns (c : Thread nD τ) arg4 fullShare (k0_pay2 a x0)) -∗ K ⟨⟩))
      ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  rw [View.read_writes_eq_canon _ _ _ (View.cover_of_tiled _ S8x128.size (by rfl))]
  rw [View.canon_unit_zero hz2]
  simp only [View.readAt_eq_ld, harg4.read_unread, harg2.read_unread, View.ld_unit_zero (S := S8x128) hz2, View.ld_unit_zero (S := S8x128x1024) hz3]

set_option maxHeartbeats 1000000 in
/-- The last column tile: as a middle one, and the guarded inverse root of the finished accumulator is stored to the output buffer. -/
theorem run0_C (c : Dev nD) (i : grid0.Coords) (arg2 : Memref sig .tc .vmem S8x128x1024 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i)
    (x0 : Vec F S8x128x1024 .f32) (a : Vec F S8x128 .f32) (E : Set ℕ) (K : PUnit → sProp 𝕄) :
    iprop(owns (c : Thread nD τ) arg2 fullShare x0 ∗ (∃ d, owns (c : Thread nD τ) arg3 fullShare d) ∗ owns (c : Thread nD τ) arg4 fullShare a
        ∗ (iprop(owns (c : Thread nD τ) arg2 fullShare x0 ∗ owns (c : Thread nD τ) arg3 fullShare (k0_pay3 (k0_pay2 a x0)) ∗ owns (c : Thread nD τ) arg4 fullShare (k0_pay2 a x0)) -∗ K ⟨⟩))
      ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%d1, %f1, -, H1⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr
    swap; · iexact H1
    ipureintro
    sl_unfold_words
    rw [View.read_writes_eq_canon _ _ _ (fun y => ⟨_, List.mem_cons_self .., View.mem_set_unit_zero hz2 inb_S8x128_S8x128_0_0 y⟩)]
    rw [View.canon_unit_zero hz2]
    simp only [View.readAt_eq_ld, harg4.read_unread, harg2.read_unread, View.ld_unit_zero (S := S8x128) hz2, View.ld_unit_zero (S := S8x128x1024) hz3, View.readCov_unit_zero (S := S8x128) _ hz2]
  iexists _; isplitr
  swap; · iexact HS0
  ipureintro
  sl_unfold_words
  rw [View.read_writes_eq_canon _ _ _ (fun y => ⟨_, List.mem_cons_self .., View.mem_set_unit_zero hz2 inb_S8x128_S8x128_0_0 y⟩)]
  rw [View.canon_unit_zero hz2]
  simp only [View.readAt_eq_ld, harg4.read_unread, harg2.read_unread, View.ld_unit_zero (S := S8x128) hz2, View.ld_unit_zero (S := S8x128x1024) hz3, View.readCov_unit_zero (S := S8x128) _ hz2]

variable (V : (c : Dev nD) → (b : Ref sig .tc) → Buf (Elt F) ((c : Thread nD τ).loc b))

/-- The current staging memref of each window at point `t`, as the body is called on it. -/
private abbrev ms0_0 (t : Fin cfg0.N) : Memref sig .tc .vmem S8x128x1024 .f32 := win0_0.stage (cfg0.slots t 0)
private abbrev ms0_1 (t : Fin cfg0.N) : Memref sig .tc .vmem S8x128 .f32 := win0_1.stage (cfg0.slots t 1)

/-- What the body is called with at point `t`: the invariant, what the core owes, and each window's current buffer at
    what it holds before the body. -/
private def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- What it returns: the invariant at the next position, the same debt, and each window's buffer at what the body leaves. -/
private def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The input window's buffer holds its block; the point's residue mod 4 selects the control case.
    At residue 0 the accumulator is reset, so whatever it held (anything at the first point, the previous value later)
    is forgotten and it ends at the row sums added to zero; at the other residues it ends at the row sums added to what
    the point before left. The output window is idle, its buffer handed back untouched, except at residue 3, where it
    ends at the guarded inverse root of the finished accumulator. -/
private theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rw [liveAt0_0 t], after0_0]
  by_cases h0 : t.val % 4 = 0
  · have h1 : ¬t.val % 4 = 3 := by omega
    have hc0 : cond0_0 (grid0.coords t) := (hcond0_0 t).mpr h0
    have hc1 : ¬cond0_1 (grid0.coords t) := fun h => h1 ((hcond0_1 t).mp h)
    rw [Dat.leavesExact_idle (dat0 V c) 1 t (idleAt0_1 t hc1) (noFlush0_1 t hc1)]
    rw [acc0_reset V c t h0]
    by_cases hz : t.val = 0
    · rw [Phi0_castSucc V c t, Phi0_zero V c _ _ hz, PhiA0_eq]
      iintro ⟨⟨⟨HS, HR⟩, Hg⟩, Ho, ⟨%d0, H0⟩, ⟨%d1, H1⟩⟩
      iapply (run0_A c (grid0.coords t) _ _ _ _ _ _ hc0 hc1 _ _ Set.univ _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      iexists _; iexact H1
    · rw [Phi0_castSucc V c t, Phi0_pos V c _ _ hz]
      iintro ⟨⟨HS, HR, Hg⟩, Ho, ⟨%d0, H0⟩, ⟨%d1, H1⟩⟩
      iapply (run0_A c (grid0.coords t) _ _ _ _ _ _ hc0 hc1 _ _ Set.univ _)
      isplitl [H0]; · iexact H0
      isplitl [H1]; · iexact H1
      isplitl [HS]; · iexists _; iexact HS
      iintro ⟨H0, H1, HS⟩
      isplitl [HS HR Hg]
      · isplitl [HS]; · iexact HS
        isplitl [HR]; · iexact HR
        iexact Hg
      isplitl [Ho]; · iexact Ho
      isplitl [H0]; · iexact H0
      iexists _; iexact H1
  · have hz : t.val ≠ 0 := fun h => h0 (by rw [h])
    have hc0 : ¬cond0_0 (grid0.coords t) := fun h => h0 ((hcond0_0 t).mp h)
    rw [acc0_step V c t h0]
    rw [Phi0_castSucc V c t, Phi0_pos V c _ _ hz]
    by_cases h1 : t.val % 4 = 3
    · have hc1 : cond0_1 (grid0.coords t) := (hcond0_1 t).mpr h1
      rw [show (dat0 V c).leavesExact 1 t = owns (c : Thread nD τ) (ms0_1 t) fullShare ((dat0 V c).after 1 t) from by
        unfold Dat.leavesExact; rw [liveAt0_1 t hc1], after0_1]
      rw [acc0_step V c t h0]
      iintro ⟨⟨HS, HR, Hg⟩, Ho, ⟨%d0, H0⟩, ⟨%d1, H1⟩⟩
      iapply (run0_C c (grid0.coords t) _ _ _ _ _ _ hc0 hc1 _ _ Set.univ _)
      isplitl [H0]; · iexact H0
      isplitl [H1]; · iexists _; iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      iexact H1
    · have hc1 : ¬cond0_1 (grid0.coords t) := fun h => h1 ((hcond0_1 t).mp h)
      rw [Dat.leavesExact_idle (dat0 V c) 1 t (idleAt0_1 t hc1) (noFlush0_1 t hc1)]
      iintro ⟨⟨HS, HR, Hg⟩, Ho, ⟨%d0, H0⟩, ⟨%d1, H1⟩⟩
      iapply (run0_B c (grid0.coords t) _ _ _ _ _ _ hc0 hc1 _ _ _ Set.univ _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      iexists _; iexact H1

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = Phi0 V c 0 (Nat.zero_le _) from rfl, Phi0_zero V c 0 _ rfl]
  try exact Idealize.SL.BI.Entails.refl _

/-- After the last point the invariant gives the scoped buffers back, the accumulator's contents forgotten. -/
theorem hout0 (c : Dev nD) : (dat0 V c).Φ (Fin.last cfg0.N) ⊢ (Pipeline.ΦA spec0 c : sProp 𝕄) := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 128 := N_0; omega)]
  iintro ⟨HS, HR, Hg⟩
  iapply (PhiA0_out c)
  isplitl [HS]; · iexists _; iexact HS
  isplitl [HR]; · iexact HR
  iexact Hg

end Cert.KernelIdeal.Hand
end
-- ==== Proof.KI.Reg0.lean ====
import proofs.«143304_j89043261980850_1_alg».proof.Proof.KI.Fold
import proofs.«143304_j89043261980850_1_alg».proof.Proof.KI.Body0
import proofs.«143304_j89043261980850_1_alg».proof.Proof.Gen.KernelIdeal.Launch
import proofs.«143304_j89043261980850_1_alg».proof.Proof.Gen.KernelIdeal.Skeleton
import proofs.«143304_j89043261980850_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 as a segment of the program: entered from every unscoped buffer at the contents before it, left with them at the contents after it -/

variable (m : (ℓ : Loc nD τ sig) → Buf (Elt F) ℓ)

/-- After the region each of its two arrays holds what the pipeline leaves there: the adjacency array is an input, so it
    keeps its entry contents, and it is not the inverse-root array, so the update leaves it alone; the inverse-root array
    is the updated reference, at what the write-backs leave by the definition of the contents after the region. -/
private theorem hF0 (c : Dev nD) (w : Fin cfg0.W) :
    (dat0 (Ve0 m) c).arrAt w cfg0.N = Ve1 m c (Pipeline.arrRef spec0 w) := by
  match w with
  | ⟨0, _⟩ =>
    exact ((dat0 (Ve0 m) c).arrAt_in 0 rfl _).trans ((A_eq0 (Ve0 m) c 0).trans (Ve1_of_ne m c main_arg1 (by decide)).symm)
  | ⟨1, _⟩ => exact (Ve1_v0 m c).symm

/-- A buffer that is none of the region's arrays is in particular not the inverse-root array (window 1's), the only
    reference the update changes: it holds after the region what it held before. -/
private theorem hrest0 (c : Dev nD) :
    ∀ b, b ∉ Finset.univ.image (Pipeline.arrRef spec0) → Ve1 m c b = Ve0 m c b :=
  fun b hb => Ve1_of_ne m c b fun e => hb (Finset.mem_image.mpr ⟨1, Finset.mem_univ _, e.symm⟩)

set_option backward.isDefEq.respectTransparency.types false in
/-- Region 0 over the thread state. Entry: the two arrays are split out of the unscoped buffers at the launch contents,
    the generator register goes into the invariant, the core owes nothing, and the remaining unscoped buffers bypass the
    region. The invariant before the first point is the scoped buffers no window stages beside the register; after the last
    point the accumulator's contents are forgotten and the same is given back. Exit: the arrays at what the write-backs
    leave and the bypassed buffers are every unscoped buffer at the contents after the region. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := TS (Ve0 m) c
  post c := TS (Ve1 m) c
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (Ve0 m) c).Φ 0 from rfl]
    refine BIBase.Entails.trans ?_ (hin0 (Ve0 m) c)
    unfold Pipeline.ΦA
    iintro ⟨Hp, -, Hr⟩
    isplitl [Hr]; · iexact Hr
    iexact Hp
  hout c := by
    rw [Pipeline.ownSems0_none, show (pdats m 0 c).Φ (Fin.last _) = (dat0 (Ve0 m) c).Φ (Fin.last cfg0.N) from rfl]
    refine BIBase.Entails.trans (hout0 (Ve0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Ve1 m c) ((pdats m 0 c).arrAt · cfg0.N) (hF0 m c) (hrest0 m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg0_pre (c : Dev nD) : (reg0 m).pre c = TS (Ve0 m) c := rfl
theorem reg0_post (c : Dev nD) : (reg0 m).post c = TS (Ve1 m) c := rfl

end Cert.KernelIdeal.Hand
end
-- ==== Proof.KI.Body1.lean ====
import proofs.«143304_j89043261980850_1_alg».proof.Proof.KI.Data
import proofs.«143304_j89043261980850_1_alg».proof.Proof.Gen.KernelIdeal.Launch
import proofs.«143304_j89043261980850_1_alg».proof.Proof.Gen.KernelIdeal.Skeleton
import proofs.«143304_j89043261980850_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1's body and its obligation at every point

The body reads its three input buffers whole and stores one payload over the whole output buffer, so the run's post
names the payload directly; nothing is carried between points, and the invariant and what the core owes pass through. -/

private theorem hz1 : (![0] : Fin 1 → Nat) = fun _ => 0 := by funext a; fin_cases a <;> rfl
private theorem hz2 : (![0, 0] : Fin 2 → Nat) = fun _ => 0 := by funext a; fin_cases a <;> rfl
private theorem hz3 : (![0, 0, 0] : Fin 3 → Nat) = fun _ => 0 := by funext a; fin_cases a <;> rfl

set_option maxHeartbeats 1000000 in
/-- The body on whole buffers: the three inputs at read contents are left as they were, and the output buffer, at anything
    before, ends at the payload of the three inputs (one store covering the whole buffer). -/
theorem sound_kernel1 (c : Dev nD) (E : Set ℕ) (i : grid1.Coords) (arg1 : Memref sig .tc .vmem S8x1024x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S8x1024x128 .bf16) (harg4 : arg4.IsWhole)
    (x0 : Vec F S8x1024x128 .f32) (x1 : Vec F S128x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (k1_pay1 x0 x1 x2)) -∗ K ⟨⟩))
      ⊢ wp frame (wpE (defs₀ (F := F)) Variants.none c none) E (cc1__lin_kernel i arg1 harg1 arg2 harg2 arg3 harg3 arg4 harg4) K := by
  simp only [cc1__lin_kernel_eq_skeleton]; unfold cc1__lin_kernel_skel
  unfold owns
  iintro ⟨⟨%f0, %hf0, H0⟩, ⟨%f1, %hf1, H1⟩, ⟨%f2, %hf2, H2⟩, ⟨%d3, %f3, -, H3⟩, Hk⟩
  obtain rfl := harg1.eq_unread hf0; obtain rfl := harg2.eq_unread hf1; obtain rfl := harg3.eq_unread hf2
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact H3
  ipureintro
  rw [View.read_writes_eq_canon _ _ _ (View.cover_of_tiled _ S8x1024x128.size (by rfl))]
  rw [View.canon_unit_zero hz3]
  simp only [View.readAt_eq_ld, harg1.read_unread, harg2.read_unread, harg3.read_unread, View.ld_unit_zero (S := S8x1024x128) hz3, View.ld_unit_zero (S := S128x128) hz2, View.ld_unit_zero (S := S128) hz1]

variable (V : (c : Dev nD) → (b : Ref sig .tc) → Buf (Elt F) ((c : Thread nD τ).loc b))

/-- What the body is called with at point `t`: the invariant, what the core owes, and the four windows' current buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: each input's buffer holds its block, so the run applies; the invariant and what the core owes
    are the same before and after and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand
end
-- ==== Proof.KI.Reg1.lean ====
import proofs.«143304_j89043261980850_1_alg».proof.Proof.KI.Fold
import proofs.«143304_j89043261980850_1_alg».proof.Proof.KI.Body1
import proofs.«143304_j89043261980850_1_alg».proof.Proof.Gen.KernelIdeal.Launch
import proofs.«143304_j89043261980850_1_alg».proof.Proof.Gen.KernelIdeal.Skeleton
import proofs.«143304_j89043261980850_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 as a segment of the program: entered from every unscoped buffer at the contents before it, left with them at the contents after it -/

variable (m : (ℓ : Loc nD τ sig) → Buf (Elt F) ℓ)

/-- After the region each of its four arrays holds what the pipeline leaves there: the three inputs keep their entry
    contents, and none is the rectified-feature array, so the update leaves them alone;
    the rectified-feature array is the updated reference, at what the write-backs leave by the definition of the contents
    after the region. -/
private theorem hF1 (c : Dev nD) (w : Fin cfg1.W) :
    (dat1 (Ve1 m) c).arrAt w cfg1.N = Ve2 m c (Pipeline.arrRef spec1 w) := by
  match w with
  | ⟨0, _⟩ =>
    exact ((dat1 (Ve1 m) c).arrAt_in 0 rfl _).trans ((A_eq1 (Ve1 m) c 0).trans (Ve2_of_ne m c main_arg0 (by decide)).symm)
  | ⟨1, _⟩ =>
    exact ((dat1 (Ve1 m) c).arrAt_in 1 rfl _).trans ((A_eq1 (Ve1 m) c 1).trans (Ve2_of_ne m c main_arg2 (by decide)).symm)
  | ⟨2, _⟩ =>
    exact ((dat1 (Ve1 m) c).arrAt_in 2 rfl _).trans ((A_eq1 (Ve1 m) c 2).trans (Ve2_of_ne m c main_arg3 (by decide)).symm)
  | ⟨3, _⟩ => exact (Ve2_v1 m c).symm

/-- A buffer that is none of the region's arrays is in particular not the rectified-feature array (window 3's), the only
    reference the update changes: it holds after the region what it held before. -/
private theorem hrest1 (c : Dev nD) :
    ∀ b, b ∉ Finset.univ.image (Pipeline.arrRef spec1) → Ve2 m c b = Ve1 m c b :=
  fun b hb => Ve2_of_ne m c b fun e => hb (Finset.mem_image.mpr ⟨3, Finset.mem_univ _, e.symm⟩)

set_option backward.isDefEq.respectTransparency.types false in
/-- Region 1 over the thread state. Entry: the four arrays are split out of the unscoped buffers at the contents region 0
    left, the generator register goes into the invariant, the core owes nothing, and the remaining unscoped buffers bypass
    the region. The invariant is the same at every point: the scoped buffers no window stages beside the register. Exit: the
    arrays at what the write-backs leave and the bypassed buffers are every unscoped buffer at the contents after the region. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := TS (Ve1 m) c
  post c := TS (Ve2 m) c
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Ve2 m c) ((pdats m 1 c).arrAt · cfg1.N) (hF1 m c) (hrest1 m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg1_pre (c : Dev nD) : (reg1 m).pre c = TS (Ve1 m) c := rfl
theorem reg1_post (c : Dev nD) : (reg1 m).post c = TS (Ve2 m) c := rfl

end Cert.KernelIdeal.Hand
end
-- ==== Proof.KI.Body2.lean ====
import proofs.«143304_j89043261980850_1_alg».proof.Proof.KI.Data
import proofs.«143304_j89043261980850_1_alg».proof.Proof.Gen.KernelIdeal.Launch
import proofs.«143304_j89043261980850_1_alg».proof.Proof.Gen.KernelIdeal.Skeleton
import proofs.«143304_j89043261980850_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2's body: one run per control case, then the obligation at every point -/

/-! The body loads and stores whole buffers only, so each run's post names the payloads directly: the accumulator ends at
the tile product added to what it held (zero at the first column tile), and at the last column tile the output buffer
at the row-wise normalisation of that. -/

private theorem hz2 : (![0, 0] : Fin 2 → Nat) = fun _ => 0 := by funext a; fin_cases a <;> rfl
private theorem hz3 : (![0, 0, 0] : Fin 3 → Nat) = fun _ => 0 := by funext a; fin_cases a <;> rfl

set_option maxHeartbeats 1000000 in
/-- First column tile: the accumulator is zeroed, then the tile product is added; the output buffer is untouched. -/
theorem run2_A (c : Dev nD) (i : grid2.Coords) (arg2 : Memref sig .tc .vmem S8x256x1024 .f32) (harg2 : arg2.IsWhole) (arg3 : Memref sig .tc .vmem S8x256 .f32) (harg3 : arg3.IsWhole) (arg4 : Memref sig .tc .vmem S8x1024 .f32) (harg4 : arg4.IsWhole) (arg5 : Memref sig .tc .vmem S8x1024x128 .bf16) (harg5 : arg5.IsWhole) (arg6 : Memref sig .tc .vmem S8x256x128 .f32) (harg6 : arg6.IsWhole) (arg7 : Memref sig .tc .vmem S8x256x128 .f32) (harg7 : arg7.IsWhole) (hc0 : cond2_0 i) (hc1 : ¬cond2_1 i)
    (x0 : Vec F S8x256x1024 .f32) (x1 : Vec F S8x256 .f32) (x2 : Vec F S8x1024 .f32) (x3 : Vec F S8x1024x128 .bf16) (xi4 : Vec F S8x256x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare (k2_pay2 x0 x1 x2 x3 (k2_pay1 (F := F)))) -∗ K ⟨⟩))
      ⊢ wp frame (wpE (defs₀ (F := F)) Variants.none c none) E (cc2__bmm_ln_kernel i arg2 harg2 arg3 harg3 arg4 harg4 arg5 harg5 arg6 harg6 arg7 harg7) K := by
  simp only [cc2__bmm_ln_kernel_eq_skeleton]; unfold cc2__bmm_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS0
  ipureintro
  sl_unfold_words
  rw [View.read_writes_eq_canon _ _ _ (fun y => ⟨_, List.mem_cons_self .., View.mem_set_unit_zero hz3 inb_S8x256x128_S8x256x128_0_0_0 y⟩)]
  rw [View.canon_cons_unit_zero (S := S8x256x128) hz3]
  simp only [View.readAt_eq_ld, harg2.read_unread, harg3.read_unread, harg4.read_unread, harg5.read_unread,
    View.ld_unit_zero (S := S8x256x1024) hz3, View.ld_unit_zero (S := S8x256) hz2, View.ld_unit_zero (S := S8x1024) hz2,
    View.ld_unit_zero (S := S8x1024x128) hz3, View.ld_unit_zero (S := S8x256x128) hz3, View.readCov_unit_zero (S := S8x256x128) _ hz3]

set_option maxHeartbeats 1000000 in
/-- A middle column tile: the tile product is added to what the accumulator held; the output buffer is untouched. -/
theorem run2_B (c : Dev nD) (i : grid2.Coords) (arg2 : Memref sig .tc .vmem S8x256x1024 .f32) (harg2 : arg2.IsWhole) (arg3 : Memref sig .tc .vmem S8x256 .f32) (harg3 : arg3.IsWhole) (arg4 : Memref sig .tc .vmem S8x1024 .f32) (harg4 : arg4.IsWhole) (arg5 : Memref sig .tc .vmem S8x1024x128 .bf16) (harg5 : arg5.IsWhole) (arg6 : Memref sig .tc .vmem S8x256x128 .f32) (harg6 : arg6.IsWhole) (arg7 : Memref sig .tc .vmem S8x256x128 .f32) (harg7 : arg7.IsWhole) (hc0 : ¬cond2_0 i) (hc1 : ¬cond2_1 i)
    (x0 : Vec F S8x256x1024 .f32) (x1 : Vec F S8x256 .f32) (x2 : Vec F S8x1024 .f32) (x3 : Vec F S8x1024x128 .bf16) (xi4 : Vec F S8x256x128 .f32) (a : Vec F S8x256x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare (k2_pay2 x0 x1 x2 x3 a)) -∗ K ⟨⟩))
      ⊢ wp frame (wpE (defs₀ (F := F)) Variants.none c none) E (cc2__bmm_ln_kernel i arg2 harg2 arg3 harg3 arg4 harg4 arg5 harg5 arg6 harg6 arg7 harg7) K := by
  simp only [cc2__bmm_ln_kernel_eq_skeleton]; unfold cc2__bmm_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS0
  ipureintro
  rw [View.read_writes_eq_canon _ _ _ (fun y => ⟨_, List.mem_cons_self .., View.mem_set_unit_zero hz3 inb_S8x256x128_S8x256x128_0_0_0 y⟩)]
  rw [View.canon_unit_zero hz3]
  simp only [View.readAt_eq_ld, harg2.read_unread, harg3.read_unread, harg4.read_unread, harg5.read_unread, harg7.read_unread,
    View.ld_unit_zero (S := S8x256x1024) hz3, View.ld_unit_zero (S := S8x256) hz2, View.ld_unit_zero (S := S8x1024) hz2,
    View.ld_unit_zero (S := S8x1024x128) hz3, View.ld_unit_zero (S := S8x256x128) hz3]

set_option maxHeartbeats 1000000 in
/-- The last column tile: as a middle one, and the row-wise normalisation of the finished accumulator is stored to the output buffer. -/
theorem run2_C (c : Dev nD) (i : grid2.Coords) (arg2 : Memref sig .tc .vmem S8x256x1024 .f32) (harg2 : arg2.IsWhole) (arg3 : Memref sig .tc .vmem S8x256 .f32) (harg3 : arg3.IsWhole) (arg4 : Memref sig .tc .vmem S8x1024 .f32) (harg4 : arg4.IsWhole) (arg5 : Memref sig .tc .vmem S8x1024x128 .bf16) (harg5 : arg5.IsWhole) (arg6 : Memref sig .tc .vmem S8x256x128 .f32) (harg6 : arg6.IsWhole) (arg7 : Memref sig .tc .vmem S8x256x128 .f32) (harg7 : arg7.IsWhole) (hc0 : ¬cond2_0 i) (hc1 : cond2_1 i)
    (x0 : Vec F S8x256x1024 .f32) (x1 : Vec F S8x256 .f32) (x2 : Vec F S8x1024 .f32) (x3 : Vec F S8x1024x128 .bf16) (a : Vec F S8x256x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k2_pay3 (k2_pay2 x0 x1 x2 x3 a)) ∗ owns (c : Thread nD τ) arg7 fullShare (k2_pay2 x0 x1 x2 x3 a)) -∗ K ⟨⟩))
      ⊢ wp frame (wpE (defs₀ (F := F)) Variants.none c none) E (cc2__bmm_ln_kernel i arg2 harg2 arg3 harg3 arg4 harg4 arg5 harg5 arg6 harg6 arg7 harg7) K := by
  simp only [cc2__bmm_ln_kernel_eq_skeleton]; unfold cc2__bmm_ln_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
  obtain rfl := harg2.eq_unread hf0; obtain rfl := harg3.eq_unread hf1; obtain rfl := harg4.eq_unread hf2
  obtain rfl := harg5.eq_unread hf3; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [View.read_writes_eq_canon _ _ _ (fun y => ⟨_, List.mem_cons_self .., View.mem_set_unit_zero hz3 inb_S8x256x128_S8x256x128_0_0_0 y⟩)]
    rw [View.canon_unit_zero hz3]
    simp only [View.readAt_eq_ld, harg2.read_unread, harg3.read_unread, harg4.read_unread, harg5.read_unread, harg7.read_unread,
      View.ld_unit_zero (S := S8x256x1024) hz3, View.ld_unit_zero (S := S8x256) hz2, View.ld_unit_zero (S := S8x1024) hz2,
      View.ld_unit_zero (S := S8x1024x128) hz3, View.ld_unit_zero (S := S8x256x128) hz3, View.readCov_unit_zero (S := S8x256x128) _ hz3]
  iexists _; isplitr
  swap; · iexact HS0
  ipureintro
  sl_unfold_words
  rw [View.read_writes_eq_canon _ _ _ (fun y => ⟨_, List.mem_cons_self .., View.mem_set_unit_zero hz3 inb_S8x256x128_S8x256x128_0_0_0 y⟩)]
  rw [View.canon_unit_zero hz3]
  simp only [View.readAt_eq_ld, harg2.read_unread, harg3.read_unread, harg4.read_unread, harg5.read_unread, harg7.read_unread,
    View.ld_unit_zero (S := S8x256x1024) hz3, View.ld_unit_zero (S := S8x256) hz2, View.ld_unit_zero (S := S8x1024) hz2,
    View.ld_unit_zero (S := S8x1024x128) hz3, View.ld_unit_zero (S := S8x256x128) hz3, View.readCov_unit_zero (S := S8x256x128) _ hz3]

variable (V : (c : Dev nD) → (b : Ref sig .tc) → Buf (Elt F) ((c : Thread nD τ).loc b))

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t)

set_option maxHeartbeats 4800000 in
/-- The body at any point. The four input buffers hold their blocks; the point's position among the four column tiles
    says which run applies. At a first column tile the accumulator is handed over at whatever it holds (the class
    invariant's at the very first point, the previous row tile's finished sum later) and comes back at the tile product
    added to zero; at the others it is handed over at what the point before left and comes back with the tile product
    added. The output buffer is idle except at a last column tile, where it comes back at the normalisation of the
    finished accumulator. The core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = Phi2 V c (t.val + 1) t.isLt from rfl, Phi2_succ]
  have hN : t.val < 64 := lt_of_lt_of_eq t.isLt (show cfg2.N = 64 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  by_cases h0 : t.val % 4 = 0
  · have hc0 : cond2_0 (grid2.coords t) := (hcond2_0 t).mpr h0
    have hc1 : ¬cond2_1 (grid2.coords t) := fun h => by have := (hcond2_1 t).mp h; omega
    rw [Dat.leavesExact_idle (dat2 V c) 4 t (idleAt2_4 t hc1) (noFlush2_4 t hc1)]
    rw [acc2_reset V c t h0]
    by_cases hz : t.val = 0
    · rw [Phi2_castSucc V c t, Phi2_zero V c _ _ hz]
      iintro ⟨HΦ, Ho, ⟨%d0, H0⟩, ⟨%d1, H1⟩, ⟨%d2, H2⟩, ⟨%d3, H3⟩, ⟨%d4, H4⟩⟩
      ihave HΦ' := (PhiA2_in (F := F) c) $$ HΦ
      icases HΦ' with ⟨HS, HR, Hg⟩
      iapply (run2_A c (grid2.coords t) _ _ _ _ _ _ _ _ _ _ _ _ hc0 hc1 (iblk2 V c 0 t) (iblk2 V c 1 t) (iblk2 V c 2 t) (iblk2 V c 3 t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
    · rw [Phi2_castSucc V c t, Phi2_pos V c _ _ hz]
      iintro ⟨⟨HS, HR, Hg⟩, Ho, ⟨%d0, H0⟩, ⟨%d1, H1⟩, ⟨%d2, H2⟩, ⟨%d3, H3⟩, ⟨%d4, H4⟩⟩
      iapply (run2_A c (grid2.coords t) _ _ _ _ _ _ _ _ _ _ _ _ hc0 hc1 (iblk2 V c 0 t) (iblk2 V c 1 t) (iblk2 V c 2 t) (iblk2 V c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
  · have hc0 : ¬cond2_0 (grid2.coords t) := fun h => h0 ((hcond2_0 t).mp h)
    have hz : t.val ≠ 0 := fun h => h0 (by rw [h])
    by_cases h1 : t.val % 4 = 3
    · have hc1 : cond2_1 (grid2.coords t) := (hcond2_1 t).mpr h1
      rw [show (dat2 V c).leavesExact 4 t = owns (c : Thread nD τ) (st2_4 t) fullShare ((dat2 V c).after 4 t) from by
        unfold Dat.leavesExact; rw [liveAt2_4 t hc1], after2_4]
      rw [acc2_step V c t h0]
      rw [Phi2_castSucc V c t, Phi2_pos V c _ _ hz]
      iintro ⟨⟨HS, HR, Hg⟩, Ho, ⟨%d0, H0⟩, ⟨%d1, H1⟩, ⟨%d2, H2⟩, ⟨%d3, H3⟩, ⟨%d4, H4⟩⟩
      iapply (run2_C c (grid2.coords t) _ _ _ _ _ _ _ _ _ _ _ _ hc0 hc1 (iblk2 V c 0 t) (iblk2 V c 1 t) (iblk2 V c 2 t) (iblk2 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
    · have hc1 : ¬cond2_1 (grid2.coords t) := fun h => h1 ((hcond2_1 t).mp h)
      rw [Dat.leavesExact_idle (dat2 V c) 4 t (idleAt2_4 t hc1) (noFlush2_4 t hc1)]
      rw [acc2_step V c t h0]
      rw [Phi2_castSucc V c t, Phi2_pos V c _ _ hz]
      iintro ⟨⟨HS, HR, Hg⟩, Ho, ⟨%d0, H0⟩, ⟨%d1, H1⟩, ⟨%d2, H2⟩, ⟨%d3, H3⟩, ⟨%d4, H4⟩⟩
      iapply (run2_B c (grid2.coords t) _ _ _ _ _ _ _ _ _ _ _ _ hc0 hc1 (iblk2 V c 0 t) (iblk2 V c 1 t) (iblk2 V c 2 t) (iblk2 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

/-- The library's body obligation for region 2, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = Phi2 V c 0 (Nat.zero_le _) from rfl, Phi2_zero V c 0 _ rfl]
  try exact Idealize.SL.BI.Entails.refl _

/-- After the last point the invariant gives the scoped buffers back, the accumulator's contents forgotten. -/
theorem hout2 (c : Dev nD) : (dat2 V c).Φ (Fin.last cfg2.N) ⊢ (Pipeline.ΦA spec2 c : sProp 𝕄) := by
  have hN : cfg2.N = 64 := N_2
  rw [show (dat2 V c).Φ (Fin.last cfg2.N) = Phi2 V c (Fin.last cfg2.N).val (Nat.le_of_lt_succ (Fin.last cfg2.N).isLt) from rfl,
    Phi2_pos V c _ _ (by rw [Fin.val_last]; omega)]
  iintro ⟨HS, HR, Hg⟩
  iapply (PhiA2_out (F := F) c)
  isplitl [HS]; · iexists _; iexact HS
  isplitl [HR]; · iexact HR
  iexact Hg

end Cert.KernelIdeal.Hand
end
-- ==== Proof.KI.Reg2.lean ====
import proofs.«143304_j89043261980850_1_alg».proof.Proof.KI.Fold
import proofs.«143304_j89043261980850_1_alg».proof.Proof.KI.Body2
import proofs.«143304_j89043261980850_1_alg».proof.Proof.Gen.KernelIdeal.Launch
import proofs.«143304_j89043261980850_1_alg».proof.Proof.Gen.KernelIdeal.Skeleton
import proofs.«143304_j89043261980850_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 as a segment of the program: entered from every unscoped buffer at the contents before it, left with them at the contents after it -/

section Arrays
variable (V : (c : Dev nD) → (b : Ref sig .tc) → Buf (Elt F) ((c : Thread nD τ).loc b))

/-- Region 2's arrays at contents `G`, window by window: each a whole buffer; the two windows on the inverse roots
    hold that buffer's two halves. -/
private theorem arrays2 (c : Dev nD) (G : (w : Fin cfg2.W) → Buf (Elt F) ((cfg2.win w).arr.view.loc (c : Thread nD τ))) :
    ((dat2 V c).arrays G : sProp 𝕄)
      = iprop((((c : Thread nD τ).loc main_arg1) ↦{fullShare} G 0) ∗ (((c : Thread nD τ).loc main_v0) ↦{fullShare.left} G 1)
          ∗ (((c : Thread nD τ).loc main_v0) ↦{fullShare.right} G 2) ∗ (((c : Thread nD τ).loc main_v1) ↦{fullShare} G 3)
          ∗ (((c : Thread nD τ).loc main_v2) ↦{fullShare} G 4)) := by
  unfold Dat.arrays
  rw [bigSep_W2]
  have h0 : (cfg2.win 0).arr.view.set = Finset.univ := (arr_whole2 0).set_eq_univ
  have h1 : (cfg2.win 1).arr.view.set = Finset.univ := (arr_whole2 1).set_eq_univ
  have h3 : (cfg2.win 3).arr.view.set = Finset.univ := (arr_whole2 3).set_eq_univ
  have h4 : (cfg2.win 4).arr.view.set = Finset.univ := (arr_whole2 4).set_eq_univ
  have s0 : (dat2 V c).share 0 = fullShare := rfl
  have s1 : (dat2 V c).share 1 = fullShare.left := rfl
  have s2 : (dat2 V c).share 2 = fullShare.right := rfl
  have s3 : (dat2 V c).share 3 = fullShare := rfl
  have s4 : (dat2 V c).share 4 = fullShare := rfl
  rw [h0, h1, h3, h4, s0, s1, s2, s3, s4]

/-- The distinct buffers behind region 2's arrays, one by one: four of them for the five windows. -/
private theorem arrBufs2 (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      = iprop((((c : Thread nD τ).loc main_arg1) ↦{fullShare} W main_arg1) ∗ (((c : Thread nD τ).loc main_v0) ↦{fullShare} W main_v0)
          ∗ (((c : Thread nD τ).loc main_v1) ↦{fullShare} W main_v1) ∗ (((c : Thread nD τ).loc main_v2) ↦{fullShare} W main_v2)) := by
  unfold Pipeline.arrBufs
  exact bigSep_eq_bigSepL_of_eq [main_arg1, main_v0, main_v1, main_v2] (by decide) (by decide) _

/-- A core's unscoped buffers are the buffers behind region 2's arrays and the rest. -/
private theorem split2 (c : Dev nD) (W : (b : Ref sig .tc) → Buf (Elt F) ((c : Thread nD τ).loc b)) :
    (unscopedBufs c W : sProp 𝕄) = iprop(Pipeline.arrBufs (Ix := Unit) (Name := ℕ) (U := UR sig nD τ) (Lvl := ℕ) spec2 c W
      ∗ Pipeline.unscopedRest (Ix := Unit) (Name := ℕ) (U := UR sig nD τ) (Lvl := ℕ) spec2 c W) :=
  Pipeline.unscopedBufs_split₀ cfgs 2 winFacts₀2.arr_unscoped c W

/-- ENTRY: the unscoped buffers at `V c` are region 2's arrays at the entry contents, the inverse roots' buffer split
    into its two halves, and the rest. -/
private theorem entry2 (c : Dev nD) :
    (unscopedBufs c (V c) : sProp 𝕄) ⊢ iprop((dat2 V c).arrays ((dat2 V c).arrAt · 0)
      ∗ Pipeline.unscopedRest (Ix := Unit) (Name := ℕ) (U := UR sig nD τ) (Lvl := ℕ) spec2 c (V c)) := by
  rw [split2, arrBufs2, arrays2]
  iintro ⟨⟨H0, H1, H3, H4⟩, Hrest⟩
  isplitr [Hrest]; swap; · iexact Hrest
  ihave H12 := (pointsTo_share (PosShare.mem_left_op_right fullShare)).1 $$ H1
  icases H12 with ⟨H1, H2⟩
  isplitl [H0]; · iexact H0
  isplitl [H1]; · iexact H1
  isplitl [H2]; · iexact H2
  isplitl [H3]; · iexact H3
  iexact H4

/-- EXIT: region 2's arrays at their final contents and the rest are the unscoped buffers at any contents `V'` that
    hold the result where the region wrote it and agree with `V c` elsewhere: an input array is never written, so
    the two halves of the inverse roots' buffer hold the same contents and join. -/
private theorem exit2 (c : Dev nD) (V' : (b : Ref sig .tc) → Buf (Elt F) ((c : Thread nD τ).loc b))
    (hres : V' main_v2 = (dat2 V c).arrAt 4 cfg2.N) (hoff : ∀ b, b ≠ main_v2 → V' b = V c b) :
    iprop((dat2 V c).arrays ((dat2 V c).arrAt · cfg2.N)
      ∗ Pipeline.unscopedRest (Ix := Unit) (Name := ℕ) (U := UR sig nD τ) (Lvl := ℕ) spec2 c (V c)) ⊢ (unscopedBufs c V' : sProp 𝕄) := by
  have e0 : (dat2 V c).arrAt 0 cfg2.N = V' main_arg1 :=
    ((dat2 V c).arrAt_in 0 rfl _).trans ((A_eq2 V c 0).trans (hoff main_arg1 (by decide)).symm)
  have e1 : (dat2 V c).arrAt 1 cfg2.N = V' main_v0 :=
    ((dat2 V c).arrAt_in 1 rfl _).trans ((A_eq2 V c 1).trans (hoff main_v0 (by decide)).symm)
  have e2 : (dat2 V c).arrAt 2 cfg2.N = V' main_v0 :=
    ((dat2 V c).arrAt_in 2 rfl _).trans ((A_eq2 V c 2).trans (hoff main_v0 (by decide)).symm)
  have e3 : (dat2 V c).arrAt 3 cfg2.N = V' main_v1 :=
    ((dat2 V c).arrAt_in 3 rfl _).trans ((A_eq2 V c 3).trans (hoff main_v1 (by decide)).symm)
  have hr : (Pipeline.unscopedRest (Ix := Unit) (Name := ℕ) (U := UR sig nD τ) (Lvl := ℕ) spec2 c V' : sProp 𝕄)
      = Pipeline.unscopedRest (Ix := Unit) (Name := ℕ) (U := UR sig nD τ) (Lvl := ℕ) spec2 c (V c) := by
    unfold Pipeline.unscopedRest
    refine bigSep_congr fun b hb => ?_
    rw [hoff b fun e => (Finset.mem_sdiff.mp hb).2 (by subst e; decide)]
  rw [split2 c V', arrBufs2, arrays2, hr, e0, e1, e2, e3, ← hres]
  iintro ⟨⟨H0, H1, H2, H3, H4⟩, Hrest⟩
  isplitr [Hrest]; swap; · iexact Hrest
  isplitl [H0]; · iexact H0
  isplitl [H1 H2]
  · iapply (pointsTo_share (PosShare.mem_left_op_right fullShare)).2
    isplitl [H1]; · iexact H1
    iexact H2
  isplitl [H3]; · iexact H3
  iexact H4

end Arrays

variable (m : (ℓ : Loc nD τ sig) → Buf (Elt F) ℓ)

set_option backward.isDefEq.respectTransparency.types false in
/-- Region 2 over the thread state: entered from every unscoped buffer at the contents region 1 leaves, left with
    them at those contents but for the result array, which holds what the region's write-backs leave. The generator
    register goes into the invariant and comes back; nothing is owed; the kernel has no semaphore of its own. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (Ve2 m) c).loose
  hwaits := Pipeline.hwaits_of_owed_zero _ _ _ _ L lv 2 fun _ _ => rfl
  pre c := TS (Ve2 m) c
  post c := TS (Ve3 m) c
  X c := iprop(∃ r, prngReg c r)
  Y c := iprop(∃ r, prngReg c r)
  Z c := Pipeline.unscopedRest (Ix := Unit) (Name := ℕ) (U := UR sig nD τ) (Lvl := ℕ) spec2 c (Ve2 m c)
  hentry c := by
    rw [Pipeline.ownSems0_none]
    have hsplit := entry2 (Ve2 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Ve2 m) c)
    unfold Pipeline.ΦA
    iintro ⟨Hp, -, Hr⟩
    isplitl [Hr]; · iexact Hr
    iexact Hp
  hout c := by
    rw [Pipeline.ownSems0_none]
    refine BIBase.Entails.trans (hout2 (Ve2 m) c) ?_
    unfold Pipeline.ΦA
    iintro ⟨Hr, Hp⟩
    isplitl [Hp]; · iexact Hp
    isplitr; · iempintro
    iexact Hr
  hexit c := by
    have hjoin := exit2 (Ve2 m) c (Ve3 m c) (Ve3_v2 m c) (fun b hb => Ve3_of_ne m c b hb)
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

theorem reg2_pre (c : Dev nD) : (reg2 m).pre c = TS (Ve2 m) c := rfl
theorem reg2_post (c : Dev nD) : (reg2 m).post c = TS (Ve3 m) c := rfl

end Cert.KernelIdeal.Hand
end
-- ==== Proof.KI.Launch.lean ====
import proofs.«143304_j89043261980850_1_alg».proof.Proof.KI.Reg0
import proofs.«143304_j89043261980850_1_alg».proof.Proof.KI.Reg1
import proofs.«143304_j89043261980850_1_alg».proof.Proof.KI.Reg2
import proofs.«143304_j89043261980850_1_alg».proof.Proof.Gen.KernelIdeal.Launch
import proofs.«143304_j89043261980850_1_alg».proof.Proof.Gen.KernelIdeal.Skeleton
import proofs.«143304_j89043261980850_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The launch: the three regions in order, and what every final memory holds -/

variable (m : (ℓ : Loc nD τ sig) → Buf (Elt F) ℓ) (ρ : Dev nD → PrngReg)

set_option backward.isDefEq.respectTransparency.types false in
/-- Every weakly fair execution of the program from memory `m` with zero counters terminates, nothing faulting, and every
    final memory holds each unscoped buffer at the contents the three regions leave. -/
theorem run_main : θ_run defs (onTc (τ := τ) (main (F := F))) ⟨m, fun _ => 0, ρ⟩ (fun r => ∀ c : Dev nD,
      ∀ b : Ref sig .tc, b.isScoped = false → r.2.mem ((c.tc : Thread nD τ).loc b) = Ve3 m c b) :=
  Pipeline.θ_run_regions_kit (pcfgs (F := F)) adm (pdats m) () cellOf_inj emb₁ defs₀ 𝒱₀ L lv m ρ main
    [.region (reg0 m), .region (reg1 m), .region (reg2 m)]
    (fun c Q => by rw [Gen.main_segs adm (pdats m) () 𝒱₀ L lv (reg0 m) (reg1 m) (reg2 m) c])
    (by simp only [Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    -- the launch element is the pipelines' initial element at every staging cell; no ghost resource per core
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => TS (Ve0 m) c)
    (Tₙ := fun c => iprop(unscopedBufs c (Ve3 m c) ∗ ∃ r, prngReg c r))
    -- the thread states chain: each region is entered at the contents the one before it left; the last state is the
    -- buffers at `Ve3` and the register beside the core owing nothing, by associativity of `∗`
    (hch := ⟨fun c => Entails.of_eq (reg0_pre m c).symm,
      fun c => Entails.of_eq ((reg0_post m c).trans (reg1_pre m c).symm),
      fun c => Entails.of_eq ((reg1_post m c).trans (reg2_pre m c).symm),
      fun c => by
        refine (Entails.of_eq (reg2_post m c)).trans ?_
        iintro ⟨Hb, Hp, HO⟩
        isplitl [Hb Hp]
        · isplitl [Hb]; · iexact Hb
          iexact Hp
        iexact HO⟩)
    -- the first thread state, core by core: the launch contents are `Ve0`, the register is at its launch state, nothing owed
    (hinit := by
      refine Pipeline.initEach L lv fun c => ?_
      iintro ⟨⟨Hh, -, HO, -, Hp, -⟩, -⟩
      imodintro
      isplitl [Hh]; · iexact Hh
      isplitl [Hp]; · iexists _; iexact Hp
      iexists ∅; iexact HO)
    (QY := fun c s => ∀ b : Ref sig .tc, b.isScoped = false → s.mem ((c.tc : Thread nD τ).loc b) = Ve3 m c b)
    -- the last thread state read against a final state: each unscoped buffer is held whole at `Ve3`, so the memory holds it
    (hfin := fun c s' => by
      iintro ⟨⟨Hh, -⟩, HSI⟩
      unfold unscopedBufs
      ihave Hr := (pointsTo_read_all (Finset.univ.filter fun b : Ref sig .tc => ¬ b.isScoped)
        (fun b => (c.tc : Thread nD τ).loc b) (Ve3 m c) s') $$ [Hh HSI]
      · isplitl [Hh] <;> iassumption
      icases Hr with ⟨%h, HSI⟩
      imodintro
      isplitr
      · ipureintro
        exact fun b hb => h b (Finset.mem_filter.mpr ⟨Finset.mem_univ _, by simp [hb]⟩)
      · iexact HSI)
    (hQ := fun s h c b hb => h c b hb)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c main_arg0 (by decide)).trans (Ve3_arg0 m c), (h c main_arg1 (by decide)).trans (Ve3_arg1 m c),
      (h c main_arg2 (by decide)).trans (Ve3_arg2 m c), (h c main_arg3 (by decide)).trans (Ve3_arg3 m c)⟩) (run_main m ρ)

/-- The run with the result named: the result array ends at what region 2's write-backs leave, the arguments as launched. -/
theorem run_value : θ_run defs (onTc (τ := τ) (main (F := F))) ⟨m, fun _ => 0, ρ⟩ (fun r => ∀ c : Dev nD,
      r.2.mem ((c.tc : Thread nD τ).loc main_v2) = o2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c main_v2 (by decide)).trans (Ve3_v2 m c),
      (h c main_arg0 (by decide)).trans (Ve3_arg0 m c), (h c main_arg1 (by decide)).trans (Ve3_arg1 m c),
      (h c main_arg2 (by decide)).trans (Ve3_arg2 m c), (h c main_arg3 (by decide)).trans (Ve3_arg3 m c)⟩) (run_main m ρ)

end Cert.KernelIdeal.Hand
end
-- ==== Proof.Spec.lean ====
import Idealize.ShloMosaic.PureOps.Ideal
import Idealize.ShloMosaic.Lib.ValueIdx

/-! # What the layer computes, index by index, over the extended reals

A graph-convolution layer on 8 graphs of 4096 nodes with 128 features: the adjacency matrix is scaled on both sides by
the guarded inverse square roots of its row sums, the node features go through a linear map and a leaky rectifier, the
scaled adjacency aggregates them, and every node's 128 aggregated features are normalised to zero mean and unit
variance. Both programs are shown equal to `out` below; they differ only in how the two long sums (over the 4096
neighbours) are grouped, which a commutative monoid does not see. -/

noncomputable section

namespace Cert.Spec

open Idealize.ShloMosaic Idealize.ShloMosaic.ValueIdx

/-- The float word 0.0, 0.01 (as rounded to binary32), 128.0 and 1e-5 (as rounded), read at the extended reals. -/
abbrev zero32 : EReal := Ideal.ofBits .f32 0x00000000#32
abbrev slope32 : EReal := Ideal.ofBits .f32 0x3C23D70A#32
abbrev n128 : EReal := Ideal.ofBits .f32 0x43000000#32
abbrev eps32 : EReal := Ideal.ofBits .f32 0x3727C5AC#32

abbrev Sadj : Shape := ⟨3, ![8, 4096, 4096]⟩
abbrev Snf : Shape := ⟨3, ![8, 4096, 128]⟩
abbrev SW : Shape := ⟨2, ![128, 128]⟩
abbrev Sb : Shape := ⟨1, ![128]⟩
abbrev Sd : Shape := ⟨2, ![8, 4096]⟩

/-- A node's degree: the sum of its adjacency row. -/
def deg (adj : Sadj.Idx → EReal) (b : Fin 8) (n : Fin 4096) : EReal := ∑ k : Fin 4096, adj (ix3 b n k)

/-- The inverse square root where the argument is positive, zero elsewhere. -/
def gsel (x : EReal) : EReal := Scalar.select (Ideal.cmp .ogt x zero32) (Ideal.rsqrt x) zero32

/-- The guarded inverse root of a node's degree. -/
def dinv (adj : Sadj.Idx → EReal) (b : Fin 8) (n : Fin 4096) : EReal := gsel (deg adj b n)

/-- The leaky rectifier with slope 0.01 (the binary32 word). -/
def lrelu (y : EReal) : EReal := Scalar.select (Ideal.cmp .oge y zero32) y (slope32 * y)

/-- The linear layer followed by the rectifier. -/
def feat (nf : Snf.Idx → EReal) (W : SW.Idx → EReal) (bb : Sb.Idx → EReal) (b : Fin 8) (n : Fin 4096) (o : Fin 128) : EReal :=
  lrelu ((∑ i : Fin 128, nf (ix3 b n i) * W (ix2 o i)) + bb (ix1 o))

/-- Aggregation through the adjacency scaled by `d` on rows and columns, of features `X` (both as stored arrays). -/
def aggG (adj : Sadj.Idx → EReal) (d : Sd.Idx → EReal) (X : Snf.Idx → EReal) (b : Fin 8) (n : Fin 4096) (o : Fin 128) : EReal :=
  ∑ k : Fin 4096, ((d (ix2 b n) * adj (ix3 b n k)) * d (ix2 b k)) * X (ix3 b k o)

/-- Normalisation of a node's 128 features to zero mean and unit variance (variance plus 1e-5 under the root). -/
def mean (Y : Fin 8 → Fin 4096 → Fin 128 → EReal) (b : Fin 8) (n : Fin 4096) : EReal := Ideal.div (∑ o : Fin 128, Y b n o) n128
def ctr (Y : Fin 8 → Fin 4096 → Fin 128 → EReal) (b : Fin 8) (n : Fin 4096) (o : Fin 128) : EReal := Y b n o - mean Y b n
def var (Y : Fin 8 → Fin 4096 → Fin 128 → EReal) (b : Fin 8) (n : Fin 4096) : EReal :=
  Ideal.div (∑ o : Fin 128, ctr Y b n o * ctr Y b n o) n128
def lnorm (Y : Fin 8 → Fin 4096 → Fin 128 → EReal) (b : Fin 8) (n : Fin 4096) (o : Fin 128) : EReal :=
  ctr Y b n o * Ideal.rsqrt (var Y b n + eps32)

/-- The stored arrays of the two intermediate results. -/
def dinvArr (adj : Sadj.Idx → EReal) : Sd.Idx → EReal := fun j => dinv adj (j 0) (j 1)
def featArr (nf : Snf.Idx → EReal) (W : SW.Idx → EReal) (bb : Sb.Idx → EReal) : Snf.Idx → EReal := fun j => feat nf W bb (j 0) (j 1) (j 2)

/-- The layer's result. -/
def out (nf : Snf.Idx → EReal) (adj : Sadj.Idx → EReal) (W : SW.Idx → EReal) (bb : Sb.Idx → EReal) : Snf.Idx → EReal :=
  fun j => lnorm (aggG adj (dinvArr adj) (featArr nf W bb)) (j 0) (j 1) (j 2)

end Cert.Spec

end
-- ==== Proof.KI.Val0.lean ====
import proofs.«143304_j89043261980850_1_alg».proof.Proof.KI.Data
import proofs.«143304_j89043261980850_1_alg».proof.Proof.Spec
import proofs.«143304_j89043261980850_1_alg».proof.Proof.Gen.KernelIdeal.Launch
import proofs.«143304_j89043261980850_1_alg».proof.Proof.Gen.KernelIdeal.Skeleton
import proofs.«143304_j89043261980850_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.ValueLayout
import Idealize.ShloMosaic.PureOps.Ideal.Laws
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # What region 0 leaves in the inverse-root array, at the extended reals -/

/-! ## A sum over 4096 terms, grouped into four tiles of 1024 -/

/-- In a commutative monoid a sum over `Fin 4096` is the sum, over the four tiles, of the sums over each tile's 1024
    terms: the index `k` is `1024 * m + j` for exactly one tile `m` and one place `j` in the tile. -/
private theorem sum_fin4096_tiles {M : Type*} [AddCommMonoid M] (f : Fin 4096 → M) :
    ∑ k : Fin 4096, f k
      = ∑ m : Fin 4, ∑ j : Fin 1024, f ⟨1024 * m.val + j.val, by have := m.isLt; have := j.isLt; omega⟩ := by
  have e : ∑ p : Fin 4 × Fin 1024, f ⟨1024 * p.1.val + p.2.val, by have := p.1.isLt; have := p.2.isLt; omega⟩
      = ∑ k : Fin 4096, f k :=
    Fintype.sum_equiv (finProdFinEquiv (m := 4) (n := 1024)) _ _ fun p => congrArg f (Fin.ext (by
      show 1024 * p.1.val + p.2.val = p.2.val + 1024 * p.1.val
      omega))
  rw [← e]
  exact Fintype.sum_prod_type _

/-! ## The body's three payloads at a (graph, row) coordinate -/

/-- The zero block the first column tile starts from. -/
private theorem pay1_apply (b : Fin 8) (r : Fin 128) : (k0_pay1 (F := Ideal)) (ix2 b r) = 0 := by
  unfold k0_pay1
  rw [shapeCast_self]
  exact Ideal.ofBits_zero_f32

/-- The accumulation: the carried value plus the block's row sum over its 1024 columns. -/
private theorem pay2_apply (a : Vec Ideal S8x128 .f32) (x : Vec Ideal S8x128x1024 .f32) (b : Fin 8) (r : Fin 128) :
    k0_pay2 a x (ix2 b r) = a (ix2 b r) + ∑ k : Fin 1024, x (ix3 b r k) := by
  unfold k0_pay2
  rw [shapeCast_self]
  refine congrArg (fun z => a (ix2 b r) + z) ?_
  refine (Ideal.multiReduction_add_single x 0x00000000#32 reduces_S8x128x1024_S8x128 (.inl rfl) rfl (ix2 b r)).trans ?_
  refine Finset.sum_congr rfl fun k _ => congrArg x ?_
  funext d
  apply Fin.ext
  match d with
  | ⟨0, _⟩ => rfl
  | ⟨1, _⟩ => rfl
  | ⟨2, _⟩ => rfl

/-- The finishing step: the guarded inverse root of the accumulated row sum. -/
private theorem pay3_apply (a : Vec Ideal S8x128 .f32) (b : Fin 8) (r : Fin 128) :
    k0_pay3 a (ix2 b r) = Cert.Spec.gsel (a (ix2 b r)) := by
  unfold k0_pay3 Cert.Spec.gsel
  rfl

/-! ## The blocks the two windows hold at a point -/

/-- The printed index maps, decided over the grid: at point `t` the adjacency window sits at block
    (0, t / 4, t % 4) and the inverse-root window at block (0, t / 4). -/
private theorem idx_facts0 : ∀ t : Fin cfg0.N,
    win0_0.index t (0 : Fin 3) = 0 ∧ win0_0.index t (1 : Fin 3) = t.val / 4 ∧ win0_0.index t (2 : Fin 3) = t.val % 4
      ∧ win0_1.index t (0 : Fin 2) = 0 ∧ win0_1.index t (1 : Fin 2) = t.val / 4 :=
  (by decide +kernel : ∀ t : Fin grid0.N, _)

/-- One column tile of a node's adjacency row, summed: the 1024 entries from column `1024 * m` on (`m` below 4). -/
private def tile (adj : Cert.Spec.Sadj.Idx → EReal) (b : Fin 8) (n : Fin 4096) (m : ℕ) : EReal :=
  ∑ k : Fin 1024, adj (ix3 b n ⟨(1024 * m + k.val) % 4096, Nat.mod_lt _ (by decide)⟩)

variable (V : (c : Dev nD) → (b : Ref sig .tc) → Buf (Elt Ideal) ((c : Thread nD τ).loc b))

/-- The adjacency window's block at point `t`, as a vector of its literal shape. -/
private abbrev adjBlk (c : Dev nD) (t : Fin cfg0.N) : Vec Ideal S8x128x1024 .f32 := iblk0 V c 0 t

/-- The adjacency window's block at point `t`, read at (b, r, k): the adjacency array at row `128 * (t / 4) + r` and
    column `1024 * (t % 4) + k` (a block's coordinate is its index times its size plus the coordinate inside). -/
private theorem iblk0_apply (c : Dev nD) (t : Fin cfg0.N) (b : Fin 8) (r : Fin 128) (k : Fin 1024)
    (n l : Fin 4096) (hn : n.val = 128 * (t.val / 4) + r.val) (hl : l.val = 1024 * (t.val % 4) + k.val) :
    adjBlk V c t (ix3 b r k) = (V c main_arg1 : Cert.Spec.Sadj.Idx → EReal) (ix3 b n l) := by
  obtain ⟨e0, e1, e2, -, -⟩ := idx_facts0 t
  unfold adjBlk iblk0
  rw [View.read_apply]
  show V c main_arg1 _ = V c main_arg1 _
  congr 1
  funext a
  apply Fin.ext
  match a with
  | ⟨0, _⟩ => show win0_0.index t (0 : Fin 3) * 8 + 1 * b.val = b.val; omega
  | ⟨1, _⟩ => show win0_0.index t (1 : Fin 3) * 128 + 1 * r.val = n.val; omega
  | ⟨2, _⟩ => show win0_0.index t (2 : Fin 3) * 1024 + 1 * k.val = l.val; omega

/-- So the block's row sum at (b, r) is column tile `t % 4` of row `128 * (t / 4) + r`. -/
private theorem blk_rowsum (c : Dev nD) (t : Fin cfg0.N) (b : Fin 8) (r : Fin 128) (n : Fin 4096)
    (hn : n.val = 128 * (t.val / 4) + r.val) :
    ∑ k : Fin 1024, adjBlk V c t (ix3 b r k) = tile (V c main_arg1) b n (t.val % 4) := by
  unfold tile
  refine Finset.sum_congr rfl fun k _ => iblk0_apply V c t b r k n _ hn ?_
  show (1024 * (t.val % 4) + k.val) % 4096 = 1024 * (t.val % 4) + k.val
  have := k.isLt
  omega

/-! ## The accumulator along a row of four points -/

/-- After point `p` the accumulator holds, at (b, r), the column tiles 0 … p % 4 of row `128 * (p / 4) + r` added up:
    zero plus the block's row sum at the first column tile, the carried value plus the block's row sum at the others. -/
private theorem acc0_apply (c : Dev nD) :
    ∀ (p : ℕ) (hp : p < cfg0.N) (b : Fin 8) (r : Fin 128) (n : Fin 4096), n.val = 128 * (p / 4) + r.val →
      acc0 V c p hp (ix2 b r) = ∑ m ∈ Finset.range (p % 4 + 1), tile (V c main_arg1) b n m := by
  intro p
  induction p with
  | zero =>
    intro hp b r n hn
    refine (congrFun (acc0_reset V c ⟨0, hp⟩ rfl) (ix2 b r)).trans ?_
    refine (pay2_apply _ _ b r).trans ?_
    refine (congrArg₂ (· + ·) (pay1_apply b r) (blk_rowsum V c ⟨0, hp⟩ b r n hn)).trans ?_
    rw [zero_add]
    exact (Finset.sum_range_one _).symm
  | succ q ih =>
    intro hp b r n hn
    by_cases h : (q + 1) % 4 = 0
    · refine (congrFun (acc0_reset V c ⟨q + 1, hp⟩ h) (ix2 b r)).trans ?_
      refine (pay2_apply _ _ b r).trans ?_
      refine (congrArg₂ (· + ·) (pay1_apply b r) (blk_rowsum V c ⟨q + 1, hp⟩ b r n hn)).trans ?_
      rw [zero_add]
      show tile (V c main_arg1) b n ((q + 1) % 4) = _
      rw [h]
      exact (Finset.sum_range_one _).symm
    · refine (congrFun (acc0_step V c ⟨q + 1, hp⟩ h) (ix2 b r)).trans ?_
      refine (pay2_apply _ _ b r).trans ?_
      refine (congrArg₂ (· + ·) (ih (Nat.lt_of_succ_lt hp) b r n (by omega)) (blk_rowsum V c ⟨q + 1, hp⟩ b r n hn)).trans ?_
      show _ + tile (V c main_arg1) b n ((q + 1) % 4) = _
      rw [show (q + 1) % 4 = q % 4 + 1 by omega]
      exact (Finset.sum_range_succ _ _).symm

/-- At the last column tile the four tiles are the whole row: the accumulator holds the node's degree. -/
private theorem acc0_last (c : Dev nD) (t : Fin cfg0.N) (ht : t.val % 4 = 3) (b : Fin 8) (r : Fin 128) (n : Fin 4096)
    (hn : n.val = 128 * (t.val / 4) + r.val) :
    acc0 V c t.val t.isLt (ix2 b r) = Cert.Spec.deg (V c main_arg1) b n := by
  rw [acc0_apply V c t.val t.isLt b r n hn, ht]
  unfold Cert.Spec.deg
  rw [sum_fin4096_tiles, Finset.sum_range]
  refine Finset.sum_congr rfl fun m _ => ?_
  unfold tile
  refine Finset.sum_congr rfl fun k _ => ?_
  congr 2
  apply Fin.ext
  show (1024 * m.val + k.val) % 4096 = 1024 * m.val + k.val
  have := m.isLt
  have := k.isLt
  omega

/-! ## From the flushed blocks to the array -/

/-- What a flushing point writes back is its block of the inverse-root array of the adjacency as the region found it. -/
private theorem flushed0_eq (c : Dev nD) (t : Fin cfg0.N) (hf : (cfg0.win 1).flush t = true) :
    (dat0 (F := Ideal) V c).flushed 1 t
      = ((cfg0.win 1).blk t).view.read (Elt Ideal) (Cert.Spec.dinvArr (V c main_arg1)) := by
  have ht : t.val % 4 = 3 := (flush0_1 t).mp hf
  have hN : cfg0.N = 128 := N_0
  obtain ⟨-, -, -, e3, e4⟩ := idx_facts0 t
  show (cfg0.win 1).cut (grid0.coords t) ((dat0 (F := Ideal) V c).after 1 t) = _
  rw [after0_1]
  funext j
  obtain ⟨b, r, rfl⟩ : ∃ (b : Fin 8) (r : Fin 128), j = ix2 b r := ⟨j 0, j 1, eq_ix2 j⟩
  have htl := t.isLt
  have hi : ((cfg0.win 1).blk t).view.emb (ix2 b r)
      = (ix2 b ⟨128 * (t.val / 4) + r.val, by have := r.isLt; omega⟩ : Cert.Spec.Sd.Idx) := by
    funext a
    apply Fin.ext
    match a with
    | ⟨0, _⟩ => show win0_1.index t (0 : Fin 2) * 8 + 1 * b.val = b.val; omega
    | ⟨1, _⟩ => show win0_1.index t (1 : Fin 2) * 128 + 1 * r.val = 128 * (t.val / 4) + r.val; omega
  rw [View.read_apply]
  show k0_pay3 (acc0 V c t.val t.isLt) (ix2 b r) = Cert.Spec.dinvArr (V c main_arg1) (((cfg0.win 1).blk t).view.emb (ix2 b r))
  rw [hi]
  refine (pay3_apply _ b r).trans ?_
  exact congrArg Cert.Spec.gsel (acc0_last V c t ht b r _ rfl)

/-- An index of the inverse-root array is in point `t`'s block iff each coordinate is in the block's range on its axis. -/
private theorem mem_blk0 (t : Fin cfg0.N) (i : Cert.Spec.Sd.Idx) :
    i ∈ ((cfg0.win 1).blk t).view.set
      ↔ ∀ a : Fin 2, win0_1.index t a * S8x128.size a ≤ (i a).val ∧ (i a).val < win0_1.index t a * S8x128.size a + S8x128.size a := by
  show i ∈ ((View.whole main_v0).slice (win0_1.rect t)).set ↔ _
  rw [View.set_slice_whole, Rect.mem_set_unit]
  exact Iff.rfl

/-- Every (graph, node) is in the block of the last column-tile point of the node's row tile. -/
private theorem covered0 (i : Cert.Spec.Sd.Idx) :
    ∃ t : Fin cfg0.N, (cfg0.win 1).flush t = true ∧ i ∈ ((cfg0.win 1).blk t).view.set := by
  have hN : cfg0.N = 128 := N_0
  have hi0 : (i 0).val < 8 := (i 0).isLt
  have hi1 : (i 1).val < 4096 := (i 1).isLt
  obtain ⟨t, ht⟩ : ∃ t : Fin cfg0.N, t.val = 4 * ((i 1).val / 128) + 3 :=
    ⟨⟨4 * ((i 1).val / 128) + 3, by omega⟩, rfl⟩
  obtain ⟨-, -, -, e3, e4⟩ := idx_facts0 t
  refine ⟨t, (flush0_1 t).mpr (by omega), ?_⟩
  rw [mem_blk0]
  intro a
  match a with
  | ⟨0, _⟩ =>
    show win0_1.index t (0 : Fin 2) * 8 ≤ (i 0).val ∧ (i 0).val < win0_1.index t (0 : Fin 2) * 8 + 8
    omega
  | ⟨1, _⟩ =>
    show win0_1.index t (1 : Fin 2) * 128 ≤ (i 1).val ∧ (i 1).val < win0_1.index t (1 : Fin 2) * 128 + 128
    omega

/-- After region 0 the inverse-root array holds, at every (graph, node), the guarded inverse root of the node's degree
    as the region found the adjacency matrix. -/
theorem out0_eq (c : Dev nD) :
    (dat0 (F := Ideal) V c).arrAt 1 cfg0.N = Cert.Spec.dinvArr (V c main_arg1) :=
  (dat0 (F := Ideal) V c).arrAt_eq_of_cover 1 (Cert.Spec.dinvArr (V c main_arg1)) (flushed0_eq V c) covered0

end Cert.KernelIdeal.HandValue
end
-- ==== Proof.KI.Val1.lean ====
import proofs.«143304_j89043261980850_1_alg».proof.Proof.KI.Data
import proofs.«143304_j89043261980850_1_alg».proof.Proof.Spec
import proofs.«143304_j89043261980850_1_alg».proof.Proof.Gen.KernelIdeal.Launch
import proofs.«143304_j89043261980850_1_alg».proof.Proof.Gen.KernelIdeal.Skeleton
import proofs.«143304_j89043261980850_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.ValueLayout
import Idealize.ShloMosaic.PureOps.Ideal.Laws
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # What region 1 leaves in the feature array, at the extended reals -/

/-- Row `1024 p + r` of the flattened block, as an index of the 8192 rows. -/
abbrev rowOf (p : Fin 8) (r : Fin 1024) : Fin 8192 := ⟨1024 * p.val + r.val, by omega⟩

/-- The block flattened to rows: row `1024 p + r` is the block's row `(p, r)`. -/
theorem rows_apply (x : FVec Ideal S8x1024x128 .bf16) (p : Fin 8) (r : Fin 1024) (i : Fin 128) :
    shapeCast S8192x128 x shapeCasts_S8x1024x128_S8192x128 (ix2 (rowOf p r) i) = x (ix3 p r i) := by
  refine shapeCast_apply x shapeCasts_S8x1024x128_S8192x128 (ix2 (rowOf p r) i) (ix3 p r i) ?_
  rw [Shape.rowMajor_val_two, Shape.rowMajor_val_three]
  show (p.val * 1024 + r.val) * 128 + i.val = (1024 * p.val + r.val) * 128 + i.val
  omega

/-- The rows folded back into the block. -/
theorem unrows_apply (y : FVec Ideal S8192x128 .f32) (p : Fin 8) (r : Fin 1024) (o : Fin 128) :
    shapeCast S8x1024x128 y shapeCasts_S8192x128_S8x1024x128 (ix3 p r o) = y (ix2 (rowOf p r) o) := by
  refine shapeCast_apply y shapeCasts_S8192x128_S8x1024x128 (ix3 p r o) (ix2 (rowOf p r) o) ?_
  rw [Shape.rowMajor_val_two, Shape.rowMajor_val_three]
  show (1024 * p.val + r.val) * 128 + o.val = (p.val * 1024 + r.val) * 128 + o.val
  omega

/-- The bias made a row and repeated down the rows. -/
theorem bias_apply (b : FVec Ideal S128 .f32) (row : Fin 8192) (o : Fin 128) :
    broadcastTo S8192x128 (shapeCast S1x128 b shapeCasts_S128_S1x128) broadcasts_S1x128_S8192x128 (ix2 row o) = b (ix1 o) := by
  refine (broadcastTo_apply _ broadcasts_S1x128_S8192x128 (ix2 row o) (ix2 (0 : Fin 1) o) (fun a => ?_)).trans ?_
  · match a with
    | ⟨0, _⟩ => rfl
    | ⟨1, _⟩ => rfl
  · refine shapeCast_apply b shapeCasts_S128_S1x128 (ix2 (0 : Fin 1) o) (ix1 o) ?_
    rw [Shape.rowMajor_val_two, Shape.rowMajor_val_one]
    show o.val = 0 * 128 + o.val
    omega

/-! ## The block product, at a row and a column -/

theorem lhs_lin_0 (j : S8192x128.Idx) (q : dot_S8192x128_S128x128_S8192x128_1_1_0_0_n_n.contr.Idx) :
    (dot_S8192x128_S128x128_S8192x128_1_1_0_0_n_n.lhsIdx j q 0).val = (j 0).val := by
  unfold DotDims.lhsIdx
  rw [dif_neg (show ¬(0 : Fin S8192x128.rank) ∈ dot_S8192x128_S128x128_S8192x128_1_1_0_0_n_n.lhsBatch by decide), dif_pos (show (0 : Fin S8192x128.rank) ∈ dot_S8192x128_S128x128_S8192x128_1_1_0_0_n_n.lhsNonContracting by decide)]
  rfl
theorem lhs_lin_1 (j : S8192x128.Idx) (q : dot_S8192x128_S128x128_S8192x128_1_1_0_0_n_n.contr.Idx) :
    (dot_S8192x128_S128x128_S8192x128_1_1_0_0_n_n.lhsIdx j q 1).val = (q ⟨0, by decide⟩).val :=
  dot_S8192x128_S128x128_S8192x128_1_1_0_0_n_n.lhsIdx_val_of_single rfl j q
theorem rhs_lin_0 (j : S8192x128.Idx) (q : dot_S8192x128_S128x128_S8192x128_1_1_0_0_n_n.contr.Idx) :
    (dot_S8192x128_S128x128_S8192x128_1_1_0_0_n_n.rhsIdx j q 0).val = (j 1).val := by
  unfold DotDims.rhsIdx
  rw [dif_neg (show ¬(0 : Fin S128x128.rank) ∈ dot_S8192x128_S128x128_S8192x128_1_1_0_0_n_n.rhsBatch by decide), dif_pos (show (0 : Fin S128x128.rank) ∈ dot_S8192x128_S128x128_S8192x128_1_1_0_0_n_n.rhsNonContracting by decide)]
  rfl
theorem rhs_lin_1 (j : S8192x128.Idx) (q : dot_S8192x128_S128x128_S8192x128_1_1_0_0_n_n.contr.Idx) :
    (dot_S8192x128_S128x128_S8192x128_1_1_0_0_n_n.rhsIdx j q 1).val = (q ⟨0, by decide⟩).val :=
  dot_S8192x128_S128x128_S8192x128_1_1_0_0_n_n.rhsIdx_val_of_single rfl j q

/-- The rows times the transposed weights into a zero accumulator: entry `(row, o)` is the sum over the 128 input
    features of the row's entry times the weight's entry in ROW `o` (both operands are contracted on their second axis). -/
theorem lin_apply (x : FVec Ideal S8192x128 .bf16) (w : FVec Ideal S128x128 .bf16) (row : Fin 8192) (o : Fin 128) :
    matmul dot_S8192x128_S128x128_S8192x128_1_1_0_0_n_n none x w (constant (F := Ideal) S8192x128 .f32 0x00000000#32) (ix2 row o)
      = ∑ i : Fin 128, x (ix2 row i) * w (ix2 o i) := by
  simp only [matmul]
  rw [Ideal.matmul_constant_zero_apply, ← Equiv.sum_comp (contrEquiv1 dot_S8192x128_S128x128_S8192x128_1_1_0_0_n_n 128 rfl rfl).symm]
  refine Finset.sum_congr rfl fun k _ => ?_
  have hk := contrEquiv1_symm_val dot_S8192x128_S128x128_S8192x128_1_1_0_0_n_n 128 rfl rfl k
  have el : dot_S8192x128_S128x128_S8192x128_1_1_0_0_n_n.lhsIdx (ix2 row o) ((contrEquiv1 dot_S8192x128_S128x128_S8192x128_1_1_0_0_n_n 128 rfl rfl).symm k) = ix2 row k := funext fun a => Fin.ext (by
    match a with
    | ⟨0, _⟩ => exact lhs_lin_0 _ _
    | ⟨1, _⟩ => exact (lhs_lin_1 _ _).trans hk)
  have er : dot_S8192x128_S128x128_S8192x128_1_1_0_0_n_n.rhsIdx (ix2 row o) ((contrEquiv1 dot_S8192x128_S128x128_S8192x128_1_1_0_0_n_n 128 rfl rfl).symm k) = ix2 o k := funext fun a => Fin.ext (by
    match a with
    | ⟨0, _⟩ => exact rhs_lin_0 _ _
    | ⟨1, _⟩ => exact (rhs_lin_1 _ _).trans hk)
  rw [el, er]

/-! ## The body's payload at a coordinate of the block -/

/-- The comparison against zero, the scaled copy (the slope on the LEFT) and the choice between the two: the leaky
    rectifier of each entry. -/
theorem act_apply (y : FVec Ideal S8192x128 .f32) (k : S8192x128.Idx) :
    select (cmpf .oge y (broadcast S8192x128 (Scalar.ofBits .f32 0x00000000#32 : Ideal .f32))) y
        (mulf (broadcast S8192x128 (Scalar.ofBits .f32 0x3C23D70A#32 : Ideal .f32)) y) k
      = Cert.Spec.lrelu (y k) := rfl

/-- The payload of a block `x` of node features, the weights `w` and the bias `b`, at row `(p, r)` and output
    feature `o`: the rectified linear layer of that row. -/
theorem pay1_apply (x : Vec Ideal S8x1024x128 .f32) (w : Vec Ideal S128x128 .f32) (b : Vec Ideal S128 .f32)
    (p : Fin 8) (r : Fin 1024) (o : Fin 128) :
    k1_pay1 x w b (ix3 p r o) = Cert.Spec.lrelu ((∑ i : Fin 128, x (ix3 p r i) * w (ix2 o i)) + b (ix1 o)) := by
  unfold k1_pay1
  rw [truncf_apply]
  refine (unrows_apply _ p r o).trans ?_
  refine (act_apply _ _).trans ?_
  refine congrArg Cert.Spec.lrelu ?_
  rw [addf_apply]
  refine congrArg₂ (· + ·) ?_ (bias_apply b (rowOf p r) o)
  refine (lin_apply _ _ (rowOf p r) o).trans ?_
  refine Finset.sum_congr rfl fun i _ => ?_
  exact congrArg (· * w (ix2 o i)) (rows_apply _ p r i)

/-! ## From the blocks to the array -/

/-- The index maps over the four points: the node features' block and the output's sit at row tile `t`; the
    weights and the bias are read whole at every point. -/
theorem idx_facts1 : ∀ t : Fin cfg1.N,
    win1_0.index t (0 : Fin 3) = 0 ∧ win1_0.index t (1 : Fin 3) = t.val ∧ win1_0.index t (2 : Fin 3) = 0
    ∧ win1_1.index t (0 : Fin 2) = 0 ∧ win1_1.index t (1 : Fin 2) = 0
    ∧ win1_2.index t (0 : Fin 1) = 0
    ∧ win1_3.index t (0 : Fin 3) = 0 ∧ win1_3.index t (1 : Fin 3) = t.val ∧ win1_3.index t (2 : Fin 3) = 0 :=
  (by decide +kernel : ∀ t : Fin grid1.N, _)

section Blocks
variable (V : (c : Dev nD) → (b : Ref sig .tc) → Buf (Elt Ideal) ((c : Thread nD τ).loc b))

/-- The node features' block at point `t` is rows `1024 t … 1024 t + 1023` of every graph. -/
theorem blk0_apply (c : Dev nD) (t : Fin cfg1.N) (p : Fin 8) (r : Fin 1024) (i : Fin 128) (n : Fin 4096)
    (hn : n.val = 1024 * t.val + r.val) :
    (iblk1 V c 0 t : Vec Ideal S8x1024x128 .f32) (ix3 p r i) = (V c main_arg0 : S8x4096x128.Idx → EReal) (ix3 p n i) := by
  obtain ⟨e0, e1, e2, -⟩ := idx_facts1 t
  unfold iblk1
  rw [View.read_apply]
  show V c main_arg0 _ = V c main_arg0 _
  refine congrArg (V c main_arg0) (funext fun a => Fin.ext ?_)
  match a with
  | ⟨0, _⟩ => show win1_0.index t (0 : Fin 3) * 8 + 1 * p.val = p.val; omega
  | ⟨1, _⟩ => show win1_0.index t (1 : Fin 3) * 1024 + 1 * r.val = n.val; omega
  | ⟨2, _⟩ => show win1_0.index t (2 : Fin 3) * 128 + 1 * i.val = i.val; omega

/-- The weights' block is the whole matrix at every point. -/
theorem blk1_eq (c : Dev nD) (t : Fin cfg1.N) :
    (iblk1 V c 1 t : Vec Ideal S128x128 .f32) = (V c main_arg2 : S128x128.Idx → EReal) := by
  obtain ⟨-, -, -, e3, e4, -⟩ := idx_facts1 t
  funext j
  unfold iblk1
  rw [View.read_apply]
  show V c main_arg2 _ = V c main_arg2 _
  refine congrArg (V c main_arg2) (funext fun a => Fin.ext ?_)
  match a with
  | ⟨0, _⟩ => show win1_1.index t (0 : Fin 2) * 128 + 1 * (j 0).val = (j 0).val; omega
  | ⟨1, _⟩ => show win1_1.index t (1 : Fin 2) * 128 + 1 * (j 1).val = (j 1).val; omega

/-- The bias's block is the whole vector at every point. -/
theorem blk2_eq (c : Dev nD) (t : Fin cfg1.N) :
    (iblk1 V c 2 t : Vec Ideal S128 .f32) = (V c main_arg3 : S128.Idx → EReal) := by
  obtain ⟨-, -, -, -, -, e5, -⟩ := idx_facts1 t
  funext j
  unfold iblk1
  rw [View.read_apply]
  show V c main_arg3 _ = V c main_arg3 _
  refine congrArg (V c main_arg3) (funext fun a => Fin.ext ?_)
  match a with
  | ⟨0, _⟩ => show win1_2.index t (0 : Fin 1) * 128 + 1 * (j 0).val = (j 0).val; omega

end Blocks

section Array
variable (V : (c : Dev nD) → (b : Ref sig .tc) → Buf (Elt Ideal) ((c : Thread nD τ).loc b))

/-- What point `t` writes back is block `t` of the rectified linear layer of the arrays as the region found them. -/
theorem flushed1_eq (c : Dev nD) (t : Fin cfg1.N) :
    (dat1 (F := Ideal) V c).flushed 3 t
      = ((cfg1.win 3).blk t).view.read (Elt Ideal) (Cert.Spec.featArr (V c main_arg0) (V c main_arg2) (V c main_arg3)) := by
  show (cfg1.win 3).cut (grid1.coords t) ((dat1 (F := Ideal) V c).after 3 t) = _
  rw [after1_3]
  funext j
  obtain ⟨p, r, o, rfl⟩ : ∃ (p : Fin 8) (r : Fin 1024) (o : Fin 128), j = ix3 p r o := ⟨j 0, j 1, j 2, eq_ix3 j⟩
  obtain ⟨-, -, -, -, -, -, e6, e7, e8⟩ := idx_facts1 t
  have ht : t.val < 4 := Nat.lt_of_lt_of_eq t.isLt N_1
  have hemb : ((cfg1.win 3).blk t).view.emb (ix3 p r o) = (ix3 p (⟨1024 * t.val + r.val, by omega⟩ : Fin 4096) o : S8x4096x128.Idx) := by
    funext a; apply Fin.ext
    match a with
    | ⟨0, _⟩ => show win1_3.index t (0 : Fin 3) * 8 + 1 * p.val = p.val; omega
    | ⟨1, _⟩ => show win1_3.index t (1 : Fin 3) * 1024 + 1 * r.val = 1024 * t.val + r.val; omega
    | ⟨2, _⟩ => show win1_3.index t (2 : Fin 3) * 128 + 1 * o.val = o.val; omega
  show k1_pay1 (iblk1 V c 0 t) (iblk1 V c 1 t) (iblk1 V c 2 t) (ix3 p r o)
      = Cert.Spec.featArr (V c main_arg0) (V c main_arg2) (V c main_arg3) (((cfg1.win 3).blk t).view.emb (ix3 p r o))
  rw [hemb]
  refine (pay1_apply (iblk1 V c 0 t) (iblk1 V c 1 t) (iblk1 V c 2 t) p r o).trans ?_
  show Cert.Spec.lrelu _ = Cert.Spec.lrelu _
  refine congrArg Cert.Spec.lrelu ?_
  refine congrArg₂ (· + ·) (Finset.sum_congr rfl fun i _ => ?_) (congrFun (blk2_eq V c t) (ix1 o))
  exact congrArg₂ (· * ·) (blk0_apply V c t p r i _ rfl) (congrFun (blk1_eq V c t) (ix2 o i))

/-- An index of the feature array is in point `t`'s block iff each coordinate is in the block's range on its axis. -/
theorem mem_blk1 (t : Fin cfg1.N) (i : S8x4096x128.Idx) :
    i ∈ ((cfg1.win 3).blk t).view.set ↔ ∀ a : Fin 3, win1_3.index t a * S8x1024x128.size a ≤ (i a).val ∧ (i a).val < win1_3.index t a * S8x1024x128.size a + S8x1024x128.size a := by
  show i ∈ ((View.whole main_v1).slice (win1_3.rect t)).set ↔ _
  rw [View.set_slice_whole, Rect.mem_set_unit]
  exact Iff.rfl

/-- Every index of the feature array lies in the block of the point that covers its row: row `n` in point `n / 1024`'s. -/
theorem cover1 (i : S8x4096x128.Idx) :
    ∃ t : Fin cfg1.N, (cfg1.win 3).flush t = true ∧ i ∈ ((cfg1.win 3).blk t).view.set := by
  have h0 : (i 0).val < 8 := (i 0).isLt
  have h1 : (i 1).val < 4096 := (i 1).isLt
  have h2 : (i 2).val < 128 := (i 2).isLt
  have hlt : (i 1).val / 1024 < cfg1.N := by rw [show cfg1.N = 4 from N_1]; omega
  obtain ⟨-, -, -, -, -, -, e6, e7, e8⟩ := idx_facts1 ⟨(i 1).val / 1024, hlt⟩
  refine ⟨⟨(i 1).val / 1024, hlt⟩, flush1_3 _, ?_⟩
  rw [mem_blk1]
  intro a
  match a with
  | ⟨0, _⟩ => show win1_3.index ⟨(i 1).val / 1024, hlt⟩ (0 : Fin 3) * 8 ≤ (i 0).val ∧ (i 0).val < win1_3.index ⟨(i 1).val / 1024, hlt⟩ (0 : Fin 3) * 8 + 8; omega
  | ⟨1, _⟩ => show win1_3.index ⟨(i 1).val / 1024, hlt⟩ (1 : Fin 3) * 1024 ≤ (i 1).val ∧ (i 1).val < win1_3.index ⟨(i 1).val / 1024, hlt⟩ (1 : Fin 3) * 1024 + 1024; rw [e7]; show (i 1).val / 1024 * 1024 ≤ (i 1).val ∧ (i 1).val < (i 1).val / 1024 * 1024 + 1024; omega
  | ⟨2, _⟩ => show win1_3.index ⟨(i 1).val / 1024, hlt⟩ (2 : Fin 3) * 128 ≤ (i 2).val ∧ (i 2).val < win1_3.index ⟨(i 1).val / 1024, hlt⟩ (2 : Fin 3) * 128 + 128; omega

end Array

variable (V : (c : Dev nD) → (b : Ref sig .tc) → Buf (Elt Ideal) ((c : Thread nD τ).loc b))

/-- After region 1 the feature array holds the rectified linear layer of the node features as the region found them. -/
theorem out1_eq (c : Dev nD) :
    (dat1 (F := Ideal) V c).arrAt 3 cfg1.N = Cert.Spec.featArr (V c main_arg0) (V c main_arg2) (V c main_arg3) := by
  exact (dat1 (F := Ideal) V c).arrAt_eq_of_cover 3 (Cert.Spec.featArr (V c main_arg0) (V c main_arg2) (V c main_arg3))
    (fun t _ => flushed1_eq V c t) cover1

end Cert.KernelIdeal.HandValue
end
-- ==== Proof.KI.Val2.lean ====
import proofs.«143304_j89043261980850_1_alg».proof.Proof.KI.Data
import proofs.«143304_j89043261980850_1_alg».proof.Proof.Spec
import proofs.«143304_j89043261980850_1_alg».proof.Proof.Gen.KernelIdeal.Launch
import proofs.«143304_j89043261980850_1_alg».proof.Proof.Gen.KernelIdeal.Skeleton
import proofs.«143304_j89043261980850_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.ValueLayout
import Idealize.ShloMosaic.PureOps.Ideal.Laws
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # What region 2 leaves in the result array, at the extended reals -/

/-! ## A sum over the 4096 neighbours, cut into the four column tiles -/

/-- A neighbour index is the tile's number times 1024 plus the place inside the tile, for exactly one such pair: in a
    commutative monoid the sum over all neighbours is the sum over the tiles of each tile's sum. -/
private theorem sum_four_tiles {M : Type*} [AddCommMonoid M] (f : Fin 4096 → M) :
    ∑ k : Fin 4096, f k
      = ∑ m : Fin 4, ∑ j : Fin 1024, f ⟨1024 * m.val + j.val, by have := m.isLt; have := j.isLt; omega⟩ := by
  rw [← Fintype.sum_prod_type (f := fun p : Fin 4 × Fin 1024 =>
    f ⟨1024 * p.1.val + p.2.val, by have := p.1.isLt; have := p.2.isLt; omega⟩)]
  refine (Fintype.sum_equiv (finProdFinEquiv (m := 4) (n := 1024)) _ f fun p => congrArg f (Fin.ext ?_)).symm
  show 1024 * p.1.val + p.2.val = p.2.val + 1024 * p.1.val
  omega

/-! ## The normalisation of one row of 128 features -/

/-- A row's mean, the row centred, its variance, and the centred value times the inverse root of the variance plus the
    1e-5 word. -/
private def lnormRow (y : Fin 128 → EReal) (o : Fin 128) : EReal :=
  (y o - Ideal.div (∑ p : Fin 128, y p) Cert.Spec.n128)
    * Ideal.rsqrt (Ideal.div (∑ q : Fin 128, (y q - Ideal.div (∑ p : Fin 128, y p) Cert.Spec.n128)
        * (y q - Ideal.div (∑ p : Fin 128, y p) Cert.Spec.n128)) Cert.Spec.n128 + Cert.Spec.eps32)

/-- The specification's normalisation at a node reads that node's row only. -/
private theorem lnorm_eq_row (Y : Fin 8 → Fin 4096 → Fin 128 → EReal) (b : Fin 8) (n : Fin 4096) (o : Fin 128) :
    Cert.Spec.lnorm Y b n o = lnormRow (fun p => Y b n p) o := rfl

/-! ## Layout operations of the body at explicit coordinates -/

/-- A vector of rows made a column, [a, b] to [a, b, 1]: it reads the row's entry whatever the unit coordinate. -/
private theorem col_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A vector laid along the last axis, [a, b] to [a, 1, b]. -/
private theorem lane_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A column [a, b, 1] broadcast over n lanes reads the column's entry of the row. -/
private theorem bcast_col_apply {α : Type} {a b n : ℕ} (v : (⟨3, ![a, b, 1]⟩ : Shape).Idx → α)
    (h : (⟨3, ![a, b, 1]⟩ : Shape).Broadcasts ⟨3, ![a, b, n]⟩) (i : Fin a) (j : Fin b) (k : Fin n) :
    broadcastTo ⟨3, ![a, b, n]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A lane vector [a, 1, n] broadcast over b rows reads the lane's entry. -/
private theorem bcast_lane_apply {α : Type} {a b n : ℕ} (v : (⟨3, ![a, 1, n]⟩ : Shape).Idx → α)
    (h : (⟨3, ![a, 1, n]⟩ : Shape).Broadcasts ⟨3, ![a, b, n]⟩) (i : Fin a) (j : Fin b) (k : Fin n) :
    broadcastTo ⟨3, ![a, b, n]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if n = 1 then 0 else k.val
    split
    · have := k.isLt; omega
    · rfl

/-- The sum over the 128 lanes of a [8, 256, 128] block, at a (graph, row) coordinate. -/
private theorem laneSum_apply (v : FVec Ideal S8x256x128 .f32) (b : Fin 8) (r : Fin 256) :
    multiReduction (F := Ideal) .add [2] S8x256 v 0x00000000#32 reduces_S8x256x128_S8x256 (.inl rfl) rfl (ix2 b r)
      = ∑ p : Fin 128, v (ix3 b r p) := by
  refine (Ideal.multiReduction_add_single v 0x00000000#32 reduces_S8x256x128_S8x256 (.inl rfl) rfl (ix2 b r)).trans ?_
  refine Finset.sum_congr rfl fun p _ => congrArg v ?_
  funext d
  apply Fin.ext
  match d with
  | ⟨0, _⟩ => rfl
  | ⟨1, _⟩ => rfl
  | ⟨2, _⟩ => rfl

/-! ## The body's three payloads at a (graph, row, feature) coordinate -/

/-- The zero block the first column tile starts from. -/
private theorem pay1_apply (b : Fin 8) (r : Fin 256) (o : Fin 128) : (k2_pay1 (F := Ideal)) (ix3 b r o) = 0 := by
  unfold k2_pay1
  rw [shapeCast_self]
  exact Ideal.ofBits_zero_f32

/-- An inverse root at an index is the inverse root of the element. -/
private theorem rsqrt_at {s : Shape} {φ : FTy} (x : FVec Ideal s φ) (i : s.Idx) : rsqrt x i = Ideal.rsqrt (x i) := rfl

/-- A block's row mean, as the column the body builds: the lane sum divided by the word 128.0. -/
private theorem rowMean_apply (a : FVec Ideal S8x256x128 .f32) (b : Fin 8) (r : Fin 256) (u : Fin 1) :
    divf (shapeCast S8x256x1 (multiReduction (F := Ideal) .add [2] S8x256 a 0x00000000#32 reduces_S8x256x128_S8x256 (.inl rfl) rfl)
        shapeCasts_S8x256_S8x256x1) (broadcast S8x256x1 (FloatOps.ofBits (F := Ideal) .f32 0x43000000#32)) (ix3 b r u)
      = Ideal.div (∑ p : Fin 128, a (ix3 b r p)) Cert.Spec.n128 := by
  refine (divf_apply _ _ _).trans ?_
  refine congrArg (fun z => Ideal.div z Cert.Spec.n128) ?_
  exact (col_apply _ _ b r u).trans (laneSum_apply a b r)

/-- The block with its row means taken off. -/
private theorem centred_apply (a : FVec Ideal S8x256x128 .f32) (b : Fin 8) (r : Fin 256) (q : Fin 128) :
    subf a (broadcastTo S8x256x128
        (divf (shapeCast S8x256x1 (multiReduction (F := Ideal) .add [2] S8x256 a 0x00000000#32 reduces_S8x256x128_S8x256 (.inl rfl) rfl)
          shapeCasts_S8x256_S8x256x1) (broadcast S8x256x1 (FloatOps.ofBits (F := Ideal) .f32 0x43000000#32)))
        broadcasts_S8x256x1_S8x256x128) (ix3 b r q)
      = a (ix3 b r q) - Ideal.div (∑ p : Fin 128, a (ix3 b r p)) Cert.Spec.n128 := by
  refine (subf_apply _ _ _).trans ?_
  refine congrArg (fun z => a (ix3 b r q) - z) ?_
  exact (bcast_col_apply _ _ b r q).trans (rowMean_apply a b r 0)

/-- The finishing step: the block's rows normalised, each over its 128 lanes. -/
private theorem pay3_apply (a : Vec Ideal S8x256x128 .f32) (b : Fin 8) (r : Fin 256) (o : Fin 128) :
    k2_pay3 a (ix3 b r o) = lnormRow (fun p => a (ix3 b r p)) o := by
  unfold k2_pay3 lnormRow
  dsimp only
  refine (mulf_apply _ _ _).trans ?_
  refine congrArg₂ (· * ·) (centred_apply a b r o) ?_
  refine (bcast_col_apply _ _ b r o).trans ?_
  refine (rsqrt_at _ _).trans (congrArg Ideal.rsqrt ?_)
  refine (addf_apply _ _ _).trans ?_
  refine congrArg (fun z => z + Cert.Spec.eps32) ?_
  refine (rowMean_apply _ b r 0).trans ?_
  refine congrArg (fun z => Ideal.div z Cert.Spec.n128) (Finset.sum_congr rfl fun q _ => ?_)
  exact (mulf_apply _ _ _).trans (congrArg₂ (· * ·) (centred_apply a b r q) (centred_apply a b r q))

/-! ## The batched product of a [8, 256, 1024] block with a [8, 1024, 128] block, at an index -/

private theorem mmL0 (i : S8x256x128.Idx) (q : dot_S8x256x1024_S8x1024x128_S8x256x128_2_1_1_2_0_0.contr.Idx) :
    (dot_S8x256x1024_S8x1024x128_S8x256x128_2_1_1_2_0_0.lhsIdx i q 0).val = (i 0).val := by
  unfold DotDims.lhsIdx
  rw [dif_pos (show (0 : Fin S8x256x1024.rank) ∈ dot_S8x256x1024_S8x1024x128_S8x256x128_2_1_1_2_0_0.lhsBatch by decide)]
  rfl
private theorem mmL1 (i : S8x256x128.Idx) (q : dot_S8x256x1024_S8x1024x128_S8x256x128_2_1_1_2_0_0.contr.Idx) :
    (dot_S8x256x1024_S8x1024x128_S8x256x128_2_1_1_2_0_0.lhsIdx i q 1).val = (i 1).val := by
  unfold DotDims.lhsIdx
  rw [dif_neg (show ¬(1 : Fin S8x256x1024.rank) ∈ dot_S8x256x1024_S8x1024x128_S8x256x128_2_1_1_2_0_0.lhsBatch by decide), dif_pos (show (1 : Fin S8x256x1024.rank) ∈ dot_S8x256x1024_S8x1024x128_S8x256x128_2_1_1_2_0_0.lhsNonContracting by decide)]
  rfl
private theorem mmL2 (i : S8x256x128.Idx) (q : dot_S8x256x1024_S8x1024x128_S8x256x128_2_1_1_2_0_0.contr.Idx) :
    (dot_S8x256x1024_S8x1024x128_S8x256x128_2_1_1_2_0_0.lhsIdx i q 2).val = (q ⟨0, by decide⟩).val :=
  dot_S8x256x1024_S8x1024x128_S8x256x128_2_1_1_2_0_0.lhsIdx_val_of_single rfl i q
private theorem mmR0 (i : S8x256x128.Idx) (q : dot_S8x256x1024_S8x1024x128_S8x256x128_2_1_1_2_0_0.contr.Idx) :
    (dot_S8x256x1024_S8x1024x128_S8x256x128_2_1_1_2_0_0.rhsIdx i q 0).val = (i 0).val := by
  unfold DotDims.rhsIdx
  rw [dif_pos (show (0 : Fin S8x1024x128.rank) ∈ dot_S8x256x1024_S8x1024x128_S8x256x128_2_1_1_2_0_0.rhsBatch by decide)]
  rfl
private theorem mmR1 (i : S8x256x128.Idx) (q : dot_S8x256x1024_S8x1024x128_S8x256x128_2_1_1_2_0_0.contr.Idx) :
    (dot_S8x256x1024_S8x1024x128_S8x256x128_2_1_1_2_0_0.rhsIdx i q 1).val = (q ⟨0, by decide⟩).val :=
  dot_S8x256x1024_S8x1024x128_S8x256x128_2_1_1_2_0_0.rhsIdx_val_of_single rfl i q
private theorem mmR2 (i : S8x256x128.Idx) (q : dot_S8x256x1024_S8x1024x128_S8x256x128_2_1_1_2_0_0.contr.Idx) :
    (dot_S8x256x1024_S8x1024x128_S8x256x128_2_1_1_2_0_0.rhsIdx i q 2).val = (i 2).val := by
  unfold DotDims.rhsIdx
  rw [dif_neg (show ¬(2 : Fin S8x1024x128.rank) ∈ dot_S8x256x1024_S8x1024x128_S8x256x128_2_1_1_2_0_0.rhsBatch by decide), dif_pos (show (2 : Fin S8x1024x128.rank) ∈ dot_S8x256x1024_S8x1024x128_S8x256x128_2_1_1_2_0_0.rhsNonContracting by decide)]
  rfl

/-- Into a zero accumulator the product at (graph, row, feature) is the sum over the block's 1024 columns of the left
    entry of the row times the right entry of the feature. -/
private theorem mm_apply (l : FVec Ideal S8x256x1024 .bf16) (rr : FVec Ideal S8x1024x128 .bf16) (b : Fin 8) (r : Fin 256) (o : Fin 128) :
    matmul (F := Ideal) dot_S8x256x1024_S8x1024x128_S8x256x128_2_1_1_2_0_0 none l rr (constant (F := Ideal) S8x256x128 .f32 0x00000000#32) (ix3 b r o)
      = ∑ k : Fin 1024, l (ix3 b r k) * rr (ix3 b k o) := by
  simp only [matmul]
  rw [Ideal.matmul_constant_zero_apply, ← Equiv.sum_comp (contrEquiv1 dot_S8x256x1024_S8x1024x128_S8x256x128_2_1_1_2_0_0 1024 rfl rfl).symm]
  refine Finset.sum_congr rfl fun k _ => ?_
  have hk := contrEquiv1_symm_val dot_S8x256x1024_S8x1024x128_S8x256x128_2_1_1_2_0_0 1024 rfl rfl k
  have el : dot_S8x256x1024_S8x1024x128_S8x256x128_2_1_1_2_0_0.lhsIdx (ix3 b r o) ((contrEquiv1 dot_S8x256x1024_S8x1024x128_S8x256x128_2_1_1_2_0_0 1024 rfl rfl).symm k) = ix3 b r k := funext fun a => Fin.ext (by
    match a with
    | ⟨0, _⟩ => exact mmL0 _ _
    | ⟨1, _⟩ => exact mmL1 _ _
    | ⟨2, _⟩ => exact (mmL2 _ _).trans hk)
  have er : dot_S8x256x1024_S8x1024x128_S8x256x128_2_1_1_2_0_0.rhsIdx (ix3 b r o) ((contrEquiv1 dot_S8x256x1024_S8x1024x128_S8x256x128_2_1_1_2_0_0 1024 rfl rfl).symm k) = ix3 b k o := funext fun a => Fin.ext (by
    match a with
    | ⟨0, _⟩ => exact mmR0 _ _
    | ⟨1, _⟩ => exact (mmR1 _ _).trans hk
    | ⟨2, _⟩ => exact mmR2 _ _)
  rw [el, er]

/-- The accumulation step: the carried block plus the product of the adjacency block, scaled by the row entries on the
    left and the column entries on the right, with the feature block. -/
private theorem pay2_apply (x0 : Vec Ideal S8x256x1024 .f32) (x1 : Vec Ideal S8x256 .f32) (x2 : Vec Ideal S8x1024 .f32)
    (x3 : Vec Ideal S8x1024x128 .bf16) (a : Vec Ideal S8x256x128 .f32) (b : Fin 8) (r : Fin 256) (o : Fin 128) :
    k2_pay2 x0 x1 x2 x3 a (ix3 b r o)
      = a (ix3 b r o) + ∑ k : Fin 1024, ((x1 (ix2 b r) * x0 (ix3 b r k)) * x2 (ix2 b k)) * x3 (ix3 b k o) := by
  unfold k2_pay2
  rw [shapeCast_self, shapeCast_self, shapeCast_self, shapeCast_self]
  refine (addf_apply _ _ _).trans ?_
  refine congrArg (fun z => a (ix3 b r o) + z) ?_
  refine (mm_apply _ _ b r o).trans ?_
  refine Finset.sum_congr rfl fun k _ => congrArg (fun z => z * x3 (ix3 b k o)) ?_
  refine (mulf_apply _ _ _).trans ?_
  refine congrArg₂ (· * ·) ?_ ?_
  · refine (mulf_apply _ _ _).trans ?_
    refine congrArg₂ (· * ·) ?_ (truncf_apply _ _ _)
    exact (bcast_col_apply _ _ b r k).trans ((col_apply _ _ b r 0).trans (truncf_apply _ _ _))
  · exact (bcast_lane_apply _ _ b r k).trans ((lane_apply _ _ b 0 k).trans (truncf_apply _ _ _))

variable (V : (c : Dev nD) → (b : Ref sig .tc) → Buf (Elt Ideal) ((c : Thread nD τ).loc b))

/-! ## The windows' blocks at a point, read off their arrays -/

/-- The printed index maps, decided over the grid: point t is row tile t / 4 and column tile t % 4; the adjacency block
    moves with both, the row entries and the output with the row tile, the column entries and the features with the
    column tile. -/
private theorem idx_facts : ∀ t : Fin cfg2.N,
    win2_0.index t (0 : Fin 3) = 0 ∧ win2_0.index t (1 : Fin 3) = t.val / 4 ∧ win2_0.index t (2 : Fin 3) = t.val % 4
    ∧ win2_1.index t (0 : Fin 2) = 0 ∧ win2_1.index t (1 : Fin 2) = t.val / 4
    ∧ win2_2.index t (0 : Fin 2) = 0 ∧ win2_2.index t (1 : Fin 2) = t.val % 4
    ∧ win2_3.index t (0 : Fin 3) = 0 ∧ win2_3.index t (1 : Fin 3) = t.val % 4 ∧ win2_3.index t (2 : Fin 3) = 0
    ∧ win2_4.index t (0 : Fin 3) = 0 ∧ win2_4.index t (1 : Fin 3) = t.val / 4 ∧ win2_4.index t (2 : Fin 3) = 0 :=
  (by decide +kernel : ∀ t : Fin grid2.N, _)

/-- The adjacency block at a point: rows of the row tile, columns of the column tile. -/
private theorem blk0_apply (c : Dev nD) (t : Fin cfg2.N) (b : Fin 8) (r : Fin 256) (k : Fin 1024) (n k' : Fin 4096)
    (hn : n.val = 256 * (t.val / 4) + r.val) (hk : k'.val = 1024 * (t.val % 4) + k.val) :
    iblk2 V c 0 t (ix3 b r k) = V c main_arg1 (ix3 b n k') := by
  obtain ⟨e0, e1, e2, -⟩ := idx_facts t
  show V c main_arg1 (((cfg2.win 0).blk t).view.emb (ix3 b r k)) = _
  refine congrArg (V c main_arg1) (funext fun a => Fin.ext ?_)
  match a with
  | ⟨0, _⟩ => show win2_0.index t (0 : Fin 3) * 8 + 1 * b.val = b.val; omega
  | ⟨1, _⟩ => show win2_0.index t (1 : Fin 3) * 256 + 1 * r.val = n.val; omega
  | ⟨2, _⟩ => show win2_0.index t (2 : Fin 3) * 1024 + 1 * k.val = k'.val; omega

/-- The row entries of the inverse-root array at a point. -/
private theorem blk1_apply (c : Dev nD) (t : Fin cfg2.N) (b : Fin 8) (r : Fin 256) (n : Fin 4096)
    (hn : n.val = 256 * (t.val / 4) + r.val) :
    iblk2 V c 1 t (ix2 b r) = V c main_v0 (ix2 b n) := by
  obtain ⟨-, -, -, e0, e1, -⟩ := idx_facts t
  show V c main_v0 (((cfg2.win 1).blk t).view.emb (ix2 b r)) = _
  refine congrArg (V c main_v0) (funext fun a => Fin.ext ?_)
  match a with
  | ⟨0, _⟩ => show win2_1.index t (0 : Fin 2) * 8 + 1 * b.val = b.val; omega
  | ⟨1, _⟩ => show win2_1.index t (1 : Fin 2) * 256 + 1 * r.val = n.val; omega

/-- The column entries of the inverse-root array at a point. -/
private theorem blk2_apply (c : Dev nD) (t : Fin cfg2.N) (b : Fin 8) (k : Fin 1024) (k' : Fin 4096)
    (hk : k'.val = 1024 * (t.val % 4) + k.val) :
    iblk2 V c 2 t (ix2 b k) = V c main_v0 (ix2 b k') := by
  obtain ⟨-, -, -, -, -, e0, e1, -⟩ := idx_facts t
  show V c main_v0 (((cfg2.win 2).blk t).view.emb (ix2 b k)) = _
  refine congrArg (V c main_v0) (funext fun a => Fin.ext ?_)
  match a with
  | ⟨0, _⟩ => show win2_2.index t (0 : Fin 2) * 8 + 1 * b.val = b.val; omega
  | ⟨1, _⟩ => show win2_2.index t (1 : Fin 2) * 1024 + 1 * k.val = k'.val; omega

/-- The feature block at a point: the nodes of the column tile. -/
private theorem blk3_apply (c : Dev nD) (t : Fin cfg2.N) (b : Fin 8) (k : Fin 1024) (o : Fin 128) (k' : Fin 4096)
    (hk : k'.val = 1024 * (t.val % 4) + k.val) :
    iblk2 V c 3 t (ix3 b k o) = V c main_v1 (ix3 b k' o) := by
  obtain ⟨-, -, -, -, -, -, -, e0, e1, e2, -⟩ := idx_facts t
  show V c main_v1 (((cfg2.win 3).blk t).view.emb (ix3 b k o)) = _
  refine congrArg (V c main_v1) (funext fun a => Fin.ext ?_)
  match a with
  | ⟨0, _⟩ => show win2_3.index t (0 : Fin 3) * 8 + 1 * b.val = b.val; omega
  | ⟨1, _⟩ => show win2_3.index t (1 : Fin 3) * 1024 + 1 * k.val = k'.val; omega
  | ⟨2, _⟩ => show win2_3.index t (2 : Fin 3) * 128 + 1 * o.val = o.val; omega

/-! ## The accumulator: one column tile's share per point, four tiles to a row tile -/

/-- One column tile's share of the aggregation at a node: the sum over the tile's 1024 neighbours. -/
private def tile (adj : Cert.Spec.Sadj.Idx → EReal) (d : Cert.Spec.Sd.Idx → EReal) (X : Cert.Spec.Snf.Idx → EReal)
    (b : Fin 8) (n : Fin 4096) (o : Fin 128) (m : Fin 4) : EReal :=
  ∑ k : Fin 1024, ((d (ix2 b n) * adj (ix3 b n ⟨1024 * m.val + k.val, by have := m.isLt; have := k.isLt; omega⟩))
      * d (ix2 b ⟨1024 * m.val + k.val, by have := m.isLt; have := k.isLt; omega⟩))
    * X (ix3 b ⟨1024 * m.val + k.val, by have := m.isLt; have := k.isLt; omega⟩ o)

/-- The aggregation at a node is the four tiles' shares added up, in the order the grid visits them. -/
private theorem aggG_eq_tiles (adj : Cert.Spec.Sadj.Idx → EReal) (d : Cert.Spec.Sd.Idx → EReal) (X : Cert.Spec.Snf.Idx → EReal)
    (b : Fin 8) (n : Fin 4096) (o : Fin 128) :
    Cert.Spec.aggG adj d X b n o = tile adj d X b n o 0 + tile adj d X b n o 1 + tile adj d X b n o 2 + tile adj d X b n o 3 := by
  unfold Cert.Spec.aggG
  rw [sum_four_tiles, Fin.sum_univ_four]
  rfl

/-- One point's step on a carried block: at a row of the point's row tile it adds the share of the point's column tile. -/
private theorem step_apply (c : Dev nD) (t : Fin cfg2.N) (a : Vec Ideal S8x256x128 .f32) (b : Fin 8) (r : Fin 256) (o : Fin 128)
    (n : Fin 4096) (m : Fin 4) (hn : n.val = 256 * (t.val / 4) + r.val) (hm : t.val % 4 = m.val) :
    k2_pay2 (iblk2 V c 0 t) (iblk2 V c 1 t) (iblk2 V c 2 t) (iblk2 V c 3 t) a (ix3 b r o)
      = a (ix3 b r o) + tile (V c main_arg1) (V c main_v0) (V c main_v1) b n o m := by
  refine (pay2_apply (iblk2 V c 0 t) (iblk2 V c 1 t) (iblk2 V c 2 t) (iblk2 V c 3 t) a b r o).trans ?_
  refine congrArg (fun z => a (ix3 b r o) + z) ?_
  unfold tile
  refine Finset.sum_congr rfl fun k _ => ?_
  have hk : 1024 * m.val + k.val = 1024 * (t.val % 4) + k.val := by rw [hm]
  exact congrArg₂ (· * ·)
    (congrArg₂ (· * ·)
      (congrArg₂ (· * ·) (blk1_apply V c t b r n hn) (blk0_apply V c t b r k n ⟨1024 * m.val + k.val, _⟩ hn hk))
      (blk2_apply V c t b k ⟨1024 * m.val + k.val, _⟩ hk))
    (blk3_apply V c t b k o ⟨1024 * m.val + k.val, _⟩ hk)

/-- At the last column tile of a row tile the accumulator holds, at each row, the whole aggregation of that node:
    zero, then the four shares in order. -/
private theorem acc_flush (c : Dev nD) (t : Fin cfg2.N) (ht : t.val % 4 = 3) (b : Fin 8) (r : Fin 256) (o : Fin 128)
    (n : Fin 4096) (hn : n.val = 256 * (t.val / 4) + r.val) :
    acc2 V c t.val t.isLt (ix3 b r o) = Cert.Spec.aggG (V c main_arg1) (V c main_v0) (V c main_v1) b n o := by
  have hN : cfg2.N = 64 := N_2
  obtain ⟨tv, h3⟩ := t
  obtain ⟨q, rfl⟩ : ∃ q, tv = 4 * q + 3 := ⟨tv / 4, by dsimp only at ht; omega⟩
  have h2 : 4 * q + 2 < cfg2.N := by omega
  have h1 : 4 * q + 1 < cfg2.N := by omega
  have h0 : 4 * q < cfg2.N := by omega
  have s3 : acc2 V c (4 * q + 3) h3 = k2_pay2 (iblk2 V c 0 ⟨4 * q + 3, h3⟩) (iblk2 V c 1 ⟨4 * q + 3, h3⟩)
      (iblk2 V c 2 ⟨4 * q + 3, h3⟩) (iblk2 V c 3 ⟨4 * q + 3, h3⟩) (acc2 V c (4 * q + 2) h2) :=
    acc2_step V c ⟨4 * q + 3, h3⟩ (by show ¬(4 * q + 3) % 4 = 0; omega)
  have s2 : acc2 V c (4 * q + 2) h2 = k2_pay2 (iblk2 V c 0 ⟨4 * q + 2, h2⟩) (iblk2 V c 1 ⟨4 * q + 2, h2⟩)
      (iblk2 V c 2 ⟨4 * q + 2, h2⟩) (iblk2 V c 3 ⟨4 * q + 2, h2⟩) (acc2 V c (4 * q + 1) h1) :=
    acc2_step V c ⟨4 * q + 2, h2⟩ (by show ¬(4 * q + 2) % 4 = 0; omega)
  have s1 : acc2 V c (4 * q + 1) h1 = k2_pay2 (iblk2 V c 0 ⟨4 * q + 1, h1⟩) (iblk2 V c 1 ⟨4 * q + 1, h1⟩)
      (iblk2 V c 2 ⟨4 * q + 1, h1⟩) (iblk2 V c 3 ⟨4 * q + 1, h1⟩) (acc2 V c (4 * q) h0) :=
    acc2_step V c ⟨4 * q + 1, h1⟩ (by show ¬(4 * q + 1) % 4 = 0; omega)
  have s0 : acc2 V c (4 * q) h0 = k2_pay2 (iblk2 V c 0 ⟨4 * q, h0⟩) (iblk2 V c 1 ⟨4 * q, h0⟩)
      (iblk2 V c 2 ⟨4 * q, h0⟩) (iblk2 V c 3 ⟨4 * q, h0⟩) (k2_pay1 (F := Ideal)) :=
    acc2_reset V c ⟨4 * q, h0⟩ (by show (4 * q) % 4 = 0; omega)
  have hn' : n.val = 256 * ((4 * q + 3) / 4) + r.val := hn
  have e3 := (congrFun s3 (ix3 b r o)).trans
    (step_apply V c ⟨4 * q + 3, h3⟩ _ b r o n 3 (by show n.val = 256 * ((4 * q + 3) / 4) + r.val; omega)
      (by show (4 * q + 3) % 4 = 3; omega))
  have e2 := (congrFun s2 (ix3 b r o)).trans
    (step_apply V c ⟨4 * q + 2, h2⟩ _ b r o n 2 (by show n.val = 256 * ((4 * q + 2) / 4) + r.val; omega)
      (by show (4 * q + 2) % 4 = 2; omega))
  have e1 := (congrFun s1 (ix3 b r o)).trans
    (step_apply V c ⟨4 * q + 1, h1⟩ _ b r o n 1 (by show n.val = 256 * ((4 * q + 1) / 4) + r.val; omega)
      (by show (4 * q + 1) % 4 = 1; omega))
  have e0 := (congrFun s0 (ix3 b r o)).trans
    (step_apply V c ⟨4 * q, h0⟩ _ b r o n 0 (by show n.val = 256 * ((4 * q) / 4) + r.val; omega)
      (by show (4 * q) % 4 = 0; omega))
  show acc2 V c (4 * q + 3) h3 (ix3 b r o) = _
  rw [e3, e2, e1, e0, pay1_apply, zero_add, aggG_eq_tiles]

/-! ## From the blocks to the array -/

/-- What a flushing point writes back is its block of the normalised aggregation. -/
private theorem flushed_eq (c : Dev nD) (t : Fin cfg2.N) (hf : (cfg2.win 4).flush t = true) :
    (dat2 (F := Ideal) V c).flushed 4 t = ((cfg2.win 4).blk t).view.read (Elt Ideal)
      (fun j => Cert.Spec.lnorm (Cert.Spec.aggG (V c main_arg1) (V c main_v0) (V c main_v1)) (j 0) (j 1) (j 2)) := by
  have hN : cfg2.N = 64 := N_2
  have ht : t.val % 4 = 3 := (flush2_4 t).mp hf
  obtain ⟨-, -, -, -, -, -, -, -, -, -, e0, e1, e2⟩ := idx_facts t
  show (cfg2.win 4).cut (grid2.coords t) ((dat2 (F := Ideal) V c).after 4 t) = _
  rw [after2_4]
  refine funext fun (j : S8x256x128.Idx) => ?_
  obtain ⟨b, r, o, rfl⟩ : ∃ (b : Fin 8) (r : Fin 256) (o : Fin 128), j = ix3 b r o := ⟨j 0, j 1, j 2, eq_ix3 j⟩
  have hr : 256 * (t.val / 4) + r.val < 4096 := by have := t.isLt; omega
  have hemb : ((cfg2.win 4).blk t).view.emb (ix3 b r o) = ix3 b ⟨256 * (t.val / 4) + r.val, hr⟩ o :=
    funext fun a => Fin.ext (by
      match a with
      | ⟨0, _⟩ => show win2_4.index t (0 : Fin 3) * 8 + 1 * b.val = b.val; omega
      | ⟨1, _⟩ => show win2_4.index t (1 : Fin 3) * 256 + 1 * r.val = 256 * (t.val / 4) + r.val; omega
      | ⟨2, _⟩ => show win2_4.index t (2 : Fin 3) * 128 + 1 * o.val = o.val; omega)
  show k2_pay3 (acc2 V c t.val t.isLt) (ix3 b r o)
    = (fun j : S8x4096x128.Idx => Cert.Spec.lnorm (Cert.Spec.aggG (V c main_arg1) (V c main_v0) (V c main_v1)) (j 0) (j 1) (j 2))
        (((cfg2.win 4).blk t).view.emb (ix3 b r o))
  rw [hemb]
  show _ = Cert.Spec.lnorm (Cert.Spec.aggG (V c main_arg1) (V c main_v0) (V c main_v1)) b ⟨256 * (t.val / 4) + r.val, hr⟩ o
  rw [lnorm_eq_row, pay3_apply]
  refine congrArg (fun y => lnormRow y o) (funext fun p => ?_)
  exact acc_flush V c t ht b r p _ rfl

/-- An index of the result array is in a point's block iff each coordinate is in the block's range on its axis. -/
private theorem mem_blk (t : Fin cfg2.N) (i : S8x4096x128.Idx) :
    i ∈ ((cfg2.win 4).blk t).view.set ↔ ∀ a : Fin 3, win2_4.index t a * S8x256x128.size a ≤ (i a).val
      ∧ (i a).val < win2_4.index t a * S8x256x128.size a + S8x256x128.size a := by
  show i ∈ ((View.whole main_v2).slice (win2_4.rect t)).set ↔ _
  rw [View.set_slice_whole, Rect.mem_set_unit]
  exact Iff.rfl

/-- Every index lies in a flushing point's block: node n is in row tile n / 256, flushed at its last column tile. -/
private theorem cover (i : S8x4096x128.Idx) :
    ∃ t : Fin cfg2.N, (cfg2.win 4).flush t = true ∧ i ∈ ((cfg2.win 4).blk t).view.set := by
  have hN : cfg2.N = 64 := N_2
  have h0 : (i 0).val < 8 := (i 0).isLt
  have h1 : (i 1).val < 4096 := (i 1).isLt
  have h2 : (i 2).val < 128 := (i 2).isLt
  have hlt : 4 * ((i 1).val / 256) + 3 < cfg2.N := by omega
  refine ⟨⟨4 * ((i 1).val / 256) + 3, hlt⟩, (flush2_4 _).mpr (by show (4 * ((i 1).val / 256) + 3) % 4 = 3; omega), ?_⟩
  obtain ⟨-, -, -, -, -, -, -, -, -, -, e0, e1, e2⟩ := idx_facts ⟨4 * ((i 1).val / 256) + 3, hlt⟩
  have e1' : win2_4.index ⟨4 * ((i 1).val / 256) + 3, hlt⟩ (1 : Fin 3) = (4 * ((i 1).val / 256) + 3) / 4 := e1
  rw [mem_blk]
  intro a
  match a with
  | ⟨0, _⟩ =>
    show win2_4.index ⟨4 * ((i 1).val / 256) + 3, hlt⟩ (0 : Fin 3) * 8 ≤ (i 0).val
      ∧ (i 0).val < win2_4.index ⟨4 * ((i 1).val / 256) + 3, hlt⟩ (0 : Fin 3) * 8 + 8
    omega
  | ⟨1, _⟩ =>
    show win2_4.index ⟨4 * ((i 1).val / 256) + 3, hlt⟩ (1 : Fin 3) * 256 ≤ (i 1).val
      ∧ (i 1).val < win2_4.index ⟨4 * ((i 1).val / 256) + 3, hlt⟩ (1 : Fin 3) * 256 + 256
    omega
  | ⟨2, _⟩ =>
    show win2_4.index ⟨4 * ((i 1).val / 256) + 3, hlt⟩ (2 : Fin 3) * 128 ≤ (i 2).val
      ∧ (i 2).val < win2_4.index ⟨4 * ((i 1).val / 256) + 3, hlt⟩ (2 : Fin 3) * 128 + 128
    omega

/-- After region 2 the result array holds the normalised aggregation of the feature array through the adjacency matrix
    scaled by the inverse-root array, all three as the region found them. -/
theorem out2_eq (c : Dev nD) :
    (dat2 (F := Ideal) V c).arrAt 4 cfg2.N
      = fun j => Cert.Spec.lnorm (Cert.Spec.aggG (V c main_arg1) (V c main_v0) (V c main_v1)) (j 0) (j 1) (j 2) :=
  (dat2 (F := Ideal) V c).arrAt_eq_of_cover 4 _ (fun t hf => flushed_eq V c t hf) cover

end Cert.KernelIdeal.HandValue
end
-- ==== Proof.KI.Value.lean ====
import proofs.«143304_j89043261980850_1_alg».proof.Proof.KI.Fold
import proofs.«143304_j89043261980850_1_alg».proof.Proof.KI.Val0
import proofs.«143304_j89043261980850_1_alg».proof.Proof.KI.Val1
import proofs.«143304_j89043261980850_1_alg».proof.Proof.KI.Val2
import proofs.«143304_j89043261980850_1_alg».proof.Proof.Spec
import proofs.«143304_j89043261980850_1_alg».proof.Proof.Gen.KernelIdeal.Launch
import proofs.«143304_j89043261980850_1_alg».proof.Proof.Gen.KernelIdeal.Skeleton
import proofs.«143304_j89043261980850_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.ValueLayout
import Idealize.ShloMosaic.PureOps.Ideal.Laws
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The kernel program's result at the extended reals is the layer's specification of the launch memory -/

variable (m : (ℓ : Loc nD τ sig) → Buf (Elt Ideal) ℓ)

/-- Region 2's write-backs leave the specification's value of the four arguments: region 0 left the inverse roots of the
    launch adjacency, region 1 the rectified features of the launch inputs, and region 2 read both with the launch adjacency. -/
theorem o2_eq (c : Dev nD) :
    o2 (F := Ideal) m c = Cert.Spec.out (m ((c.tc : Thread nD τ).loc main_arg0)) (m ((c.tc : Thread nD τ).loc main_arg1))
      (m ((c.tc : Thread nD τ).loc main_arg2)) (m ((c.tc : Thread nD τ).loc main_arg3)) := by
  unfold o2
  rw [out2_eq, Ve2_arg1, Ve2_v0, Ve2_v1]
  unfold o0 o1
  rw [out0_eq, out1_eq, Ve1_arg0, Ve1_arg2, Ve1_arg3]
  rfl

end Cert.KernelIdeal.HandValue
end
-- ==== Proof.RefValue.lean ====
import proofs.«143304_j89043261980850_1_alg».proof.Proof.Gen.ReferenceIdeal.Run
import proofs.«143304_j89043261980850_1_alg».proof.Proof.Gen.ReferenceIdeal.Read
import proofs.«143304_j89043261980850_1_alg».proof.Proof.Spec
import Idealize.ShloMosaic.Lib.ValueIdx
import Idealize.ShloMosaic.Lib.ValueLayout
import Idealize.ShloMosaic.Lib.Pipeline.Value
import Idealize.ShloMosaic.PureOps.Ideal.Laws

/-! # The reference program's result is the layer's specification

The reference is read stage by stage at an index split into its coordinates: the degree and its guarded inverse root,
the doubly scaled adjacency, the linear layer with the leaky rectifier, the aggregation, and the normalisation of each
node's 128 features. Each stage's value at coordinates is the specification's function of the same name; a sum's zero
initial value is dropped by `0 + x = x`. -/

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The four argument arrays' types. -/
private abbrev TNf : Type := (⟨S8x4096x128, .f32⟩ : BufTy).Contents (Elt Ideal)
private abbrev TAdj : Type := (⟨S8x4096x4096, .f32⟩ : BufTy).Contents (Elt Ideal)
private abbrev TW : Type := (⟨S128x128, .f32⟩ : BufTy).Contents (Elt Ideal)
private abbrev TB : Type := (⟨S128, .f32⟩ : BufTy).Contents (Elt Ideal)

/-- The row sum of the adjacency: the zero initial value plus the sum over the row is the degree. -/
private theorem deg_at (adj : TAdj) (b : Fin 8) (n : Fin 4096) :
    Read.val_main_v0 (F := Ideal) adj (ix2 b n) = Cert.Spec.deg adj b n := by
  have e : ∀ k : Fin 4096, Read.idx_main_v0 (ix2 b n) k = ix3 b n k := fun k =>
    funext fun a => Fin.ext (by match a with | ⟨0, _⟩ => rfl | ⟨1, _⟩ => rfl | ⟨2, _⟩ => rfl)
  rw [Read.val_main_v0_apply, Read.val_main_cst_apply]
  simp only [e, Ideal.ofBits_def, Ideal.ofBits_zero_f32, zero_add]
  rfl

/-- The guarded inverse root of the degree. -/
private theorem dinv_at (adj : TAdj) (b : Fin 8) (n : Fin 4096) :
    Read.val_main_v4 (F := Ideal) adj (ix2 b n) = Cert.Spec.dinv adj b n := by
  rw [Read.val_main_v4_apply, Read.val_main_v2_apply, Read.val_main_v3_apply, Read.val_main_v1_apply,
    Read.val_main_call0_v1_apply, Read.val_main_call0_v0_apply, Read.val_main_cst_0_apply, Read.val_main_cst_1_apply,
    deg_at]
  rfl

/-- The adjacency scaled by the guarded inverse roots of its row's and its column's degrees. -/
private theorem scaled_at (adj : TAdj) (b : Fin 8) (n k : Fin 4096) :
    Read.val_main_v10 (F := Ideal) adj (ix3 b n k)
      = (Cert.Spec.dinv adj b n * adj (ix3 b n k)) * Cert.Spec.dinv adj b k := by
  have er : Read.idx_main_v5 (Read.idx_main_v6 (ix3 b n k)) = ix2 b n :=
    funext fun a => Fin.ext (by match a with | ⟨0, _⟩ => rfl | ⟨1, _⟩ => rfl)
  have ec : Read.idx_main_v8 (Read.idx_main_v9 (ix3 b n k)) = ix2 b k :=
    funext fun a => Fin.ext (by match a with | ⟨0, _⟩ => rfl | ⟨1, _⟩ => rfl)
  rw [Read.val_main_v10_apply, Read.val_main_v7_apply, Read.val_main_v6_apply, Read.val_main_v5_apply,
    Read.val_main_v9_apply, Read.val_main_v8_apply, er, ec, dinv_at, dinv_at]
  rfl

/-- The linear layer: the contraction over the 128 input features plus the bias. -/
private theorem lin_at (nf : TNf) (W : TW) (bb : TB) (b : Fin 8) (n : Fin 4096) (o : Fin 128) :
    Read.val_main_v14 (F := Ideal) nf W bb (ix3 b n o)
      = (∑ i : Fin 128, nf (ix3 b n i) * W (ix2 o i)) + bb (ix1 o) := by
  have el : ∀ k : Fin 128, Read.lidx_main_v11 (ix3 b n o) k = ix3 b n k := fun k =>
    funext fun a => Fin.ext (by match a with | ⟨0, _⟩ => rfl | ⟨1, _⟩ => rfl | ⟨2, _⟩ => rfl)
  have er : ∀ k : Fin 128, Read.ridx_main_v11 (ix3 b n o) k = ix2 o k := fun k =>
    funext fun a => Fin.ext (by match a with | ⟨0, _⟩ => rfl | ⟨1, _⟩ => rfl)
  have eb : Read.idx_main_v12 (Read.idx_main_v13 (ix3 b n o)) = ix1 o :=
    funext fun a => Fin.ext (by match a with | ⟨0, _⟩ => rfl)
  rw [Read.val_main_v14_apply, Read.val_main_v11_apply, Read.val_main_v13_apply, Read.val_main_v12_apply, eb]
  simp only [el, er]
  rfl

/-- The leaky rectifier of the linear layer. -/
private theorem feat_at (nf : TNf) (W : TW) (bb : TB) (b : Fin 8) (n : Fin 4096) (o : Fin 128) :
    Read.val_main_v19 (F := Ideal) nf W bb (ix3 b n o) = Cert.Spec.feat nf W bb b n o := by
  rw [Read.val_main_v19_apply, Read.val_main_v16_apply, Read.val_main_v18_apply, Read.val_main_v15_apply,
    Read.val_main_v17_apply, Read.val_main_cst_2_apply, Read.val_main_cst_3_apply, lin_at]
  rfl

/-- The aggregation of the features through the scaled adjacency. -/
private theorem agg_at (nf : TNf) (adj : TAdj) (W : TW) (bb : TB) (b : Fin 8) (n : Fin 4096) (o : Fin 128) :
    Read.val_main_v20 (F := Ideal) nf adj W bb (ix3 b n o)
      = Cert.Spec.aggG adj (Cert.Spec.dinvArr adj) (Cert.Spec.featArr nf W bb) b n o := by
  have el : ∀ k : Fin 4096, Read.lidx_main_v20 (ix3 b n o) k = ix3 b n k := fun k =>
    funext fun a => Fin.ext (by match a with | ⟨0, _⟩ => rfl | ⟨1, _⟩ => rfl | ⟨2, _⟩ => rfl)
  have er : ∀ k : Fin 4096, Read.ridx_main_v20 (ix3 b n o) k = ix3 b k o := fun k =>
    funext fun a => Fin.ext (by match a with | ⟨0, _⟩ => rfl | ⟨1, _⟩ => rfl | ⟨2, _⟩ => rfl)
  rw [Read.val_main_v20_apply]
  simp only [el, er, scaled_at, feat_at]
  rfl

/-- The aggregated features as a function of the coordinates. -/
private abbrev agg (nf : TNf) (adj : TAdj) (W : TW) (bb : TB) : Fin 8 → Fin 4096 → Fin 128 → EReal :=
  Cert.Spec.aggG adj (Cert.Spec.dinvArr adj) (Cert.Spec.featArr nf W bb)

/-- A node's mean feature: the zero initial value plus the sum over its 128 features, over 128. -/
private theorem mean_at (nf : TNf) (adj : TAdj) (W : TW) (bb : TB) (b : Fin 8) (n : Fin 4096) (z : Fin 1) :
    Read.val_main_v24 (F := Ideal) nf adj W bb (ix3 b n z) = Cert.Spec.mean (agg nf adj W bb) b n := by
  have e : ∀ k : Fin 128, Read.idx_main_v21 (ix2 b n) k = ix3 b n k := fun k =>
    funext fun a => Fin.ext (by match a with | ⟨0, _⟩ => rfl | ⟨1, _⟩ => rfl | ⟨2, _⟩ => rfl)
  have er : Read.idx_main_v22 (ix3 b n z) = ix2 b n :=
    funext fun a => Fin.ext (by match a with | ⟨0, _⟩ => rfl | ⟨1, _⟩ => rfl)
  rw [Read.val_main_v24_apply, Read.val_main_v22_apply, Read.val_main_v23_apply, Read.val_main_cst_5_apply, er,
    Read.val_main_v21_apply, Read.val_main_cst_4_apply]
  simp only [e, agg_at, Ideal.ofBits_def, Ideal.ofBits_zero_f32, zero_add]
  rfl

/-- A feature less its node's mean, as the variance reads it. -/
private theorem ctr_at (nf : TNf) (adj : TAdj) (W : TW) (bb : TB) (b : Fin 8) (n : Fin 4096) (o : Fin 128) :
    Read.val_main_v26 (F := Ideal) nf adj W bb (ix3 b n o) = Cert.Spec.ctr (agg nf adj W bb) b n o := by
  have e : Read.idx_main_v25 (ix3 b n o) = ix3 b n (⟨0, Nat.one_pos⟩ : Fin 1) :=
    funext fun a => Fin.ext (by match a with | ⟨0, _⟩ => rfl | ⟨1, _⟩ => rfl | ⟨2, _⟩ => rfl)
  rw [Read.val_main_v26_apply, Read.val_main_v25_apply, e, mean_at, agg_at]
  rfl

/-- A feature less its node's mean, as the result reads it. -/
private theorem ctr_at' (nf : TNf) (adj : TAdj) (W : TW) (bb : TB) (b : Fin 8) (n : Fin 4096) (o : Fin 128) :
    Read.val_main_v33 (F := Ideal) nf adj W bb (ix3 b n o) = Cert.Spec.ctr (agg nf adj W bb) b n o := by
  have e : Read.idx_main_v32 (ix3 b n o) = ix3 b n (⟨0, Nat.one_pos⟩ : Fin 1) :=
    funext fun a => Fin.ext (by match a with | ⟨0, _⟩ => rfl | ⟨1, _⟩ => rfl | ⟨2, _⟩ => rfl)
  rw [Read.val_main_v33_apply, Read.val_main_v32_apply, e, mean_at, agg_at]
  rfl

/-- A node's variance: the zero initial value plus the sum of the squared centred features, over 128. -/
private theorem var_at (nf : TNf) (adj : TAdj) (W : TW) (bb : TB) (b : Fin 8) (n : Fin 4096) (z : Fin 1) :
    Read.val_main_v31 (F := Ideal) nf adj W bb (ix3 b n z) = Cert.Spec.var (agg nf adj W bb) b n := by
  have e : ∀ k : Fin 128, Read.idx_main_v28 (ix2 b n) k = ix3 b n k := fun k =>
    funext fun a => Fin.ext (by match a with | ⟨0, _⟩ => rfl | ⟨1, _⟩ => rfl | ⟨2, _⟩ => rfl)
  have er : Read.idx_main_v29 (ix3 b n z) = ix2 b n :=
    funext fun a => Fin.ext (by match a with | ⟨0, _⟩ => rfl | ⟨1, _⟩ => rfl)
  rw [Read.val_main_v31_apply, Read.val_main_v29_apply, Read.val_main_v30_apply, Read.val_main_cst_7_apply, er,
    Read.val_main_v28_apply, Read.val_main_cst_6_apply]
  simp only [e, Read.val_main_v27_apply, ctr_at, Ideal.ofBits_def, Ideal.ofBits_zero_f32, zero_add]
  rfl

/-- The normalised feature: the centred feature times the inverse root of the variance plus the small constant. -/
private theorem out_at (nf : TNf) (adj : TAdj) (W : TW) (bb : TB) (b : Fin 8) (n : Fin 4096) (o : Fin 128) :
    Read.val_main_v38 (F := Ideal) nf adj W bb (ix3 b n o) = Cert.Spec.lnorm (agg nf adj W bb) b n o := by
  have e : Read.idx_main_v37 (ix3 b n o) = ix3 b n (⟨0, Nat.one_pos⟩ : Fin 1) :=
    funext fun a => Fin.ext (by match a with | ⟨0, _⟩ => rfl | ⟨1, _⟩ => rfl | ⟨2, _⟩ => rfl)
  rw [Read.val_main_v38_apply, Read.val_main_v37_apply, e, Read.val_main_v36_apply, Read.val_main_v35_apply,
    Read.val_main_v34_apply, Read.val_main_cst_8_apply, var_at, ctr_at']
  rfl

/-- The reference's composed term of the four arguments is the specification of them. -/
theorem ref_eq (m : (ℓ : Loc nD τ sig) → Buf (Elt Ideal) ℓ) (c : Dev nD) :
    Cert.ReferenceIdeal.Value.res_main_v38 (F := Ideal) m c
      = Cert.Spec.out (m ((c.tc : Thread nD τ).loc main_arg0)) (m ((c.tc : Thread nD τ).loc main_arg1))
          (m ((c.tc : Thread nD τ).loc main_arg2)) (m ((c.tc : Thread nD τ).loc main_arg3)) := by
  rw [Read.val_main_v38_eq]
  funext j
  obtain ⟨b, n, o, rfl⟩ : ∃ (b : Fin 8) (n : Fin 4096) (o : Fin 128), j = ix3 b n o := ⟨j 0, j 1, j 2, eq_ix3 j⟩
  exact out_at _ _ _ _ b n o

end Cert.ReferenceIdeal.RefValue
end
-- ==== Proof.lean ====
/- The certificate's claim: both kernel programs run to the end leaving their arguments as launched, the reference does too,
   and at the extended reals the kernel program and the reference end with the same result, element by element.

   The kernel program is three pipelined regions. Each region's frame is its body's run at every grid point over an
   invariant that carries the accumulator between points; the three are composed in order. At the extended reals the
   result array is read off the regions' write-backs: the guarded inverse roots of the degrees, the rectified linear
   layer, and the normalised aggregation, each as a whole-array function, which is the specification the reference's
   composed term also equals. The one law between the two sides is that a sum over 4096 neighbours is the sum over
   four tiles of the sums over 1024. -/
import proofs.«143304_j89043261980850_1_alg».proof.Defs
import proofs.«143304_j89043261980850_1_alg».proof.Proof.Gen.Kernel
import proofs.«143304_j89043261980850_1_alg».proof.Proof.Gen.KernelIdeal
import proofs.«143304_j89043261980850_1_alg».proof.Proof.Gen.ReferenceIdeal
import proofs.«143304_j89043261980850_1_alg».proof.Proof.Gen.Pre_finite_inputs
import proofs.«143304_j89043261980850_1_alg».proof.Proof.Gen.ReferenceIdeal.Run
import proofs.«143304_j89043261980850_1_alg».proof.Proof.K.Launch
import proofs.«143304_j89043261980850_1_alg».proof.Proof.KI.Launch
import proofs.«143304_j89043261980850_1_alg».proof.Proof.KI.Value
import proofs.«143304_j89043261980850_1_alg».proof.Proof.RefValue
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => (θ_run Cert.ReferenceIdeal.defs _ _).mono (fun _ h c => (h c).2) (Cert.ReferenceIdeal.Value.run (F := Ideal) m ρ),
  trivial,
  fun m ρ m' ρ' _ hagree =>
    ⟨fun c => Cert.Spec.out (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
      (θ_run Cert.KernelIdeal.defs _ _).mono (fun _ h c => ⟨(h c).1.trans (Cert.KernelIdeal.HandValue.o2_eq m c), (h c).2⟩)
        (Cert.KernelIdeal.Hand.run_value (F := Ideal) m ρ),
      (θ_run Cert.ReferenceIdeal.defs _ _).mono (fun _ h c =>
          ⟨by rw [(h c).1, Cert.ReferenceIdeal.RefValue.ref_eq, (hagree c).1, (hagree c).2.1, (hagree c).2.2.1, (hagree c).2.2.2], (h c).2⟩)
        (Cert.ReferenceIdeal.Value.run (F := Ideal) m' ρ')⟩⟩

end Cert.Proof

end
